-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel

variable [Facts]

def fn {F : FTy → Type} [FloatOps F] (main_arg0 : FVec F S131072x512 .f32) (main_arg1 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  main_v3
-- ==== Kernel.lean ====
abbrev S131072x512 : Shape := ⟨2, ![131072, 512]⟩
abbrev S131072 : Shape := ⟨1, ![131072]⟩
abbrev S131072x1 : Shape := ⟨2, ![131072, 1]⟩
abbrev S1024x512 : Shape := ⟨2, ![1024, 512]⟩
abbrev S1024x128 : Shape := ⟨2, ![1024, 128]⟩
abbrev S2048x512 : Shape := ⟨2, ![2048, 512]⟩
abbrev S2048x1 : Shape := ⟨2, ![2048, 1]⟩
abbrev S2048x1024 : Shape := ⟨2, ![2048, 1024]⟩
abbrev S2048x128 : Shape := ⟨2, ![2048, 128]⟩
abbrev S1x1 : Shape := ⟨2, ![1, 1]⟩
abbrev S1024x1 : Shape := ⟨2, ![1024, 1]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S131072x1, .i32⟩
  | .hbm, ⟨3, _⟩ => ⟨S1024x512, .f32⟩
  | .hbm, ⟨4, _⟩ => ⟨S1024x128, .f32⟩
  | .hbm, ⟨5, _⟩ => ⟨S1x1, .f32⟩
  | .hbm, ⟨6, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1024x512, .f32⟩
  | .local _ .vmem, ⟨5, _⟩ => ⟨S1024x128, .f32⟩
  | .local _ .vmem, ⟨6, _⟩ => ⟨S1024x512, .f32⟩
  | .local _ .vmem, ⟨7, _⟩ => ⟨S1024x128, .f32⟩
  | .local _ .vmem, ⟨8, _⟩ => ⟨S1x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S131072_S131072x1 : S131072.ShapeCasts S131072x1
  inb_S1024x512_S1024x512_0_0 : ∀ a, (![0, 0] : Fin 2 → Nat) a + S1024x512.size a ≤ S1024x512.size a
  h_S1024x512 : 0 < S1024x512.numel
  inb_S1024x128_S1024x128_0_0 : ∀ a, (![0, 0] : Fin 2 → Nat) a + S1024x128.size a ≤ S1024x128.size a
  h_S1024x128 : 0 < S1024x128.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  shapeCasts_S1024x512_S1024x512 : S1024x512.ShapeCasts S1024x512
  shapeCasts_S1024x128_S1024x128 : S1024x128.ShapeCasts S1024x128
  slices_S1024x128_o0_0_S1024x1 : S1024x128.Slices ![0, 0] S1024x1
  broadcasts_S1024x1_S1024x512 : S1024x1.Broadcasts S1024x512
  reduces_S1024x512_S1024 : S1024x512.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S2048x1024_S2048x512_S1024x512_0_0_1_1_n_n_wf : DotDims.WF S2048x1024 S2048x512 S1024x512 [0] [0] [1] [1] [] []
  dot_S2048x1024_S2048x128_S1024x128_0_0_1_1_n_n_wf : DotDims.WF S2048x1024 S2048x128 S1024x128 [0] [0] [1] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .f32 = 32 ∨ (Rect.block (s := S1024x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S2048x1024_S2048x512_S1024x512_0_0_1_1_n_n : DotDims S2048x1024 S2048x512 S1024x512 where
  lhsContracting := [0]
  rhsContracting := [0]
  lhsNonContracting := [1]
  rhsNonContracting := [1]
  lhsBatch := []
  rhsBatch := []
  wf := dot_S2048x1024_S2048x512_S1024x512_0_0_1_1_n_n_wf
def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1_0) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S131072x512 : Shape := ⟨2, ![131072, 512]⟩
abbrev S131072 : Shape := ⟨1, ![131072]⟩
abbrev S_ : Shape := ⟨0, ![]⟩
abbrev S1000x512 : Shape := ⟨2, ![1000, 512]⟩
abbrev S131072x1 : Shape := ⟨2, ![131072, 1]⟩
abbrev S1000 : Shape := ⟨1, ![1000]⟩
abbrev S1000x1 : Shape := ⟨2, ![1000, 1]⟩
abbrev S1x1000 : Shape := ⟨2, ![1, 1000]⟩
abbrev S1000x1000 : Shape := ⟨2, ![1000, 1000]⟩
abbrev S512x1000 : Shape := ⟨2, ![512, 1000]⟩

abbrev nBuf : Space → Nat
  | .hbm => 47
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S_, .f32⟩
  | .hbm, ⟨3, _⟩ => ⟨S1000x512, .f32⟩
  | .hbm, ⟨4, _⟩ => ⟨S131072x1, .i32⟩
  | .hbm, ⟨5, _⟩ => ⟨S1000x512, .f32⟩
  | .hbm, ⟨6, _⟩ => ⟨S_, .f32⟩
  | .hbm, ⟨7, _⟩ => ⟨S131072, .f32⟩
  | .hbm, ⟨8, _⟩ => ⟨S_, .f32⟩
  | .hbm, ⟨9, _⟩ => ⟨S1000, .f32⟩
  | .hbm, ⟨10, _⟩ => ⟨S131072x1, .i32⟩
  | .hbm, ⟨11, _⟩ => ⟨S1000, .f32⟩
  | .hbm, ⟨12, _⟩ => ⟨S_, .f32⟩
  | .hbm, ⟨13, _⟩ => ⟨S1000, .f32⟩
  | .hbm, ⟨14, _⟩ => ⟨S1000, .f32⟩
  | .hbm, ⟨15, _⟩ => ⟨S1000x1, .f32⟩
  | .hbm, ⟨16, _⟩ => ⟨S1000x512, .f32⟩
  | .hbm, ⟨17, _⟩ => ⟨S1000x512, .f32⟩
  | .hbm, ⟨18, _⟩ => ⟨S1000x512, .f32⟩
  | .hbm, ⟨19, _⟩ => ⟨S_, .f32⟩
  | .hbm, ⟨20, _⟩ => ⟨S1000, .f32⟩
  | .hbm, ⟨21, _⟩ => ⟨S1000x1, .f32⟩
  | .hbm, ⟨22, _⟩ => ⟨S1x1000, .f32⟩
  | .hbm, ⟨23, _⟩ => ⟨S1000x1000, .f32⟩
  | .hbm, ⟨24, _⟩ => ⟨S1000x1000, .f32⟩
  | .hbm, ⟨25, _⟩ => ⟨S1000x1000, .f32⟩
  | .hbm, ⟨26, _⟩ => ⟨S512x1000, .f32⟩
  | .hbm, ⟨27, _⟩ => ⟨S1000x1000, .f32⟩
  | .hbm, ⟨28, _⟩ => ⟨S_, .f32⟩
  | .hbm, ⟨29, _⟩ => ⟨S1000x1000, .f32⟩
  | .hbm, ⟨30, _⟩ => ⟨S1000x1000, .f32⟩
  | .hbm, ⟨31, _⟩ => ⟨S1000x1000, .f32⟩
  | .hbm, ⟨32, _⟩ => ⟨S_, .f32⟩
  | .hbm, ⟨33, _⟩ => ⟨S1000x1000, .f32⟩
  | .hbm, ⟨34, _⟩ => ⟨S1000x1000, .i1⟩
  | .hbm, ⟨35, _⟩ => ⟨S_, .f32⟩
  | .hbm, ⟨36, _⟩ => ⟨S_, .f32⟩
  | .hbm, ⟨37, _⟩ => ⟨S1000x1000, .f32⟩
  | .hbm, ⟨38, _⟩ => ⟨S1000x1000, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S_S1000x512 : S_.BroadcastsInDim S1000x512 (![] : Fin 0 → Fin S1000x512.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  reducesTo_S1000x512_S1000_d1 : S1000x512.ReducesTo [1] S1000
  h_S_ : 0 < S_.numel
  bcast_S1000_S1x1000_1 : S1000.BroadcastsInDim S1x1000 (![1] : Fin 1 → Fin S1x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  transposes_S1000x512_S512x1000_1_0 : S1000x512.Transposes [1, 0] S512x1000
  bcast_S_S1000x1000 : S_.BroadcastsInDim S1000x1000 (![] : Fin 0 → Fin S1000x1000.rank)
  reducesTo_S1000x1000_S_d0_1 : S1000x1000.ReducesTo [0, 1] S_
  scatter_S1000x512_S131072x1_S131072x512_1_0_0_1_wf : ScatterDims.WF S1000x512 S131072x1 S131072x512 [1] [0] [0] 1
  scatter_S1000_S131072x1_S131072_n_0_0_1_wf : ScatterDims.WF S1000 S131072x1 S131072 [] [0] [0] 1
  dot_S1000x512_S512x1000_S1000x1000_1_0_0_1_n_n_wf : DotDims.WF S1000x512 S512x1000 S1000x1000 [1] [0] [0] [1] [] []

variable [Facts₀]

def scatter_S1000x512_S131072x1_S131072x512_1_0_0_1 : ScatterDims S1000x512 S131072x1 S131072x512 where
  updateWindowDims := [1]
  insertedWindowDims := [0]
  scatterDimsToOperandDims := [0]
  indexVectorDim := 1
  wf := scatter_S1000x512_S131072x1_S131072x512_1_0_0_1_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf
def dot_S1000x512_S512x1000_S1000x1000_1_0_0_1_n_n : DotDims S1000x512 S512x1000 S1000x1000 where
  lhsContracting := [1]
  rhsContracting := [0]
  lhsNonContracting := [0]
  rhsNonContracting := [1]
  lhsBatch := []
  rhsBatch := []
  wf := dot_S1000x512_S512x1000_S1000x1000_1_0_0_1_n_n_wf

class Facts : Prop extends Facts₀ where

variable [Facts]
-- ==== Proof.Spec.lean ====
/-
  The mathematics of the range loss, free of either program.

  Rows `n < 131072` of a feature matrix carry a class word `lab n`; class `k` owns the rows whose word,
  read as a signed integer, is `k`. `segSum` is the sum of a class's rows, coordinate by coordinate, and
  `segCnt` the number of its rows. From any sums `S` and counts `C` of the classes below 1000 the loss is:
  the centre of a class is its sum divided by its count (a count below one read as one); `dist` is the
  squared distance of two centres, spelt `|a|² + |b|² - 2 a·b`; the distances that are not positive are set
  to `+∞`; `dmin` is the least of the 1000 × 1000 entries; and the loss is `max (1 - dmin) 0` (times one).
  Every constant is kept as the word both programs print.
-/
import Idealize.ShloMosaic.PureOps.Ideal
import Idealize.ShloMosaic.PureOps.Ideal.Laws

noncomputable section

namespace Cert.RangeLoss

open Idealize.ShloMosaic

/-- The sum, coordinate `d`, of the rows of class `k`. -/
def segSum (x : Fin 131072 → Fin 512 → EReal) (lab : Fin 131072 → BitVec 32) (k : ℕ) (d : Fin 512) : EReal :=
  ∑ n : Fin 131072, if (lab n).toInt = (k : ℤ) then x n d else 0

/-- The number of rows of class `k`. -/
def segCnt (lab : Fin 131072 → BitVec 32) (k : ℕ) : EReal :=
  ∑ n : Fin 131072, if (lab n).toInt = (k : ℤ) then (1 : EReal) else 0

variable (S : ℕ → Fin 512 → EReal) (C : ℕ → EReal)

/-- The centre of class `k`: its sum over its count, a count below one read as one. -/
def ctr (k : ℕ) (d : Fin 512) : EReal :=
  Ideal.div (S k d) (max (C k) (Ideal.ofBits .f32 0x3F800000#32))

/-- The squared norm of a centre. -/
def sqn (k : ℕ) : EReal := ∑ d : Fin 512, ctr S C k d * ctr S C k d

/-- The inner product of two centres. -/
def gram (k k' : ℕ) : EReal := ∑ d : Fin 512, ctr S C k d * ctr S C k' d

/-- The squared distance of two centres, as both programs spell it. -/
def dist (k k' : ℕ) : EReal :=
  (sqn S C k + sqn S C k') - Ideal.ofBits .f32 0x40000000#32 * gram S C k k'

/-- A distance that is not positive is replaced by `+∞`. -/
def msk (k k' : ℕ) : EReal :=
  Scalar.select (Ideal.cmp .ogt (dist S C k k') (Ideal.ofBits .f32 0x00000000#32)) (dist S C k k')
    (Ideal.ofBits .f32 0x7F800000#32)

/-- The least masked distance over the pairs of classes below 1000. -/
def dmin : EReal := (Finset.univ : Finset (Fin 1000 × Fin 1000)).inf fun p => msk S C p.1.val p.2.val

/-- The loss. -/
def loss : EReal :=
  max (Ideal.ofBits .f32 0x3F800000#32 - dmin S C) (Ideal.ofBits .f32 0x00000000#32) * Ideal.ofBits .f32 0x3F800000#32

/-- The word of `+∞` is the top of the extended reals. -/
theorem ofBits_inf : Ideal.ofBits .f32 0x7F800000#32 = (⊤ : EReal) := by simp [Ideal.ofBits, Ideal.ieee]

/-- The loss depends on the sums and counts of the classes below 1000 only. -/
theorem loss_congr {S S' : ℕ → Fin 512 → EReal} {C C' : ℕ → EReal}
    (hS : ∀ k, k < 1000 → ∀ d, S k d = S' k d) (hC : ∀ k, k < 1000 → C k = C' k) : loss S C = loss S' C' := by
  have hctr : ∀ k, k < 1000 → ∀ d, ctr S C k d = ctr S' C' k d := fun k hk d => by
    unfold ctr; rw [hS k hk d, hC k hk]
  have hsq : ∀ k, k < 1000 → sqn S C k = sqn S' C' k := fun k hk => by
    unfold sqn; exact Finset.sum_congr rfl fun d _ => by rw [hctr k hk d]
  have hgr : ∀ k k', k < 1000 → k' < 1000 → gram S C k k' = gram S' C' k k' := fun k k' hk hk' => by
    unfold gram; exact Finset.sum_congr rfl fun d _ => by rw [hctr k hk d, hctr k' hk' d]
  have hdi : ∀ k k', k < 1000 → k' < 1000 → dist S C k k' = dist S' C' k k' := fun k k' hk hk' => by
    unfold dist; rw [hsq k hk, hsq k' hk', hgr k k' hk hk']
  have hmk : ∀ k k', k < 1000 → k' < 1000 → msk S C k k' = msk S' C' k k' := fun k k' hk hk' => by
    unfold msk; rw [hdi k k' hk hk']
  have hdm : dmin S C = dmin S' C' := by
    unfold dmin; exact Finset.inf_congr rfl fun p _ => hmk _ _ p.1.isLt p.2.isLt
  unfold loss; rw [hdm]

end Cert.RangeLoss

end
-- ==== Proof.Accum.lean ====
/-
  The first kernel region, read as values.

  The region visits 64 row tiles of 2048 rows. At each tile it forms the 2048 × 1024 indicator matrix
  "row r of the tile has class k" and adds, to a 1024 × 512 block it carries from tile to tile, the
  product of the indicator's transpose with the tile's 2048 × 512 features; to a 1024 × 128 block it adds
  the product with a matrix of ones, so every lane of row k counts the tile's rows of class k. At the first
  tile both blocks are first set to zero. So after tile n the first block holds, at (k, d), the sum over the
  rows of tiles 0 … n whose class is k of the row's coordinate d, and the second the number of those rows.
-/
import proofs.«410029_j64123861729955_1_alg».proof.Proof.Gen.KernelIdeal.Frame
import proofs.«410029_j64123861729955_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Accum

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-! ## What one tile leaves in the two carried blocks -/

section Cases

variable (c : Dev nD) (i : grid0.Coords)
  (a1 : Memref sig .tc .vmem S2048x512 .f32) (h1 : a1.IsWhole) (a2 : Memref sig .tc .vmem S2048x1 .i32) (h2 : a2.IsWhole)
  (a3 : Memref sig .tc .vmem S1024x512 .f32) (h3 : a3.IsWhole) (a4 : Memref sig .tc .vmem S1024x128 .f32) (h4 : a4.IsWhole)
  (x : Vec F S2048x512 .f32) (l : Vec F S2048x1 .i32)

/-- A later tile adds its product to the sums it finds. -/
theorem sums_later (hc : ¬cond0_0 i) (s : Vec F S1024x512 .f32) (n : Vec F S1024x128 .f32) :
    out0_B_2 c i a1 h1 a2 h2 a3 h3 a4 h4 hc x l s n = k0_pay4 x l s := by
  unfold out0_B_2
  rw [View.read_writes_eq_canon _ _ _ (cover0_B_2 c i a1 h1 a2 h2 a3 h3 a4 h4 hc x l s n)]
  unfold kernelRun0_B
  dsimp only
  sl_unfold_words
  rw [View.canon_unit_zero hz]
  simp only [View.readAt_eq_ld, h1.read_unread, h2.read_unread, h3.read_unread, View.ld_unit_zero (S := S2048x512) hz,
    View.ld_unit_zero (S := S2048x1) hz, View.ld_unit_zero (S := S1024x512) hz]

/-- A later tile adds its counts to the counts it finds. -/
theorem counts_later (hc : ¬cond0_0 i) (s : Vec F S1024x512 .f32) (n : Vec F S1024x128 .f32) :
    out0_B_3 c i a1 h1 a2 h2 a3 h3 a4 h4 hc x l s n = k0_pay5 l n := by
  unfold out0_B_3
  rw [View.read_writes_eq_canon _ _ _ (cover0_B_3 c i a1 h1 a2 h2 a3 h3 a4 h4 hc x l s n)]
  unfold kernelRun0_B
  dsimp only
  sl_unfold_words
  rw [View.canon_unit_zero hz]
  simp only [View.readAt_eq_ld, h2.read_unread, h4.read_unread, View.ld_unit_zero (S := S2048x1) hz,
    View.ld_unit_zero (S := S1024x128) hz]

/-- The first tile adds its product to the zero block it has just stored. -/
theorem sums_first (hc : cond0_0 i) :
    out0_A_2 c i a1 h1 a2 h2 a3 h3 a4 h4 hc x l = k0_pay4 x l (k0_pay1 (F := F)) := by
  unfold out0_A_2
  rw [View.read_writes_eq_canon _ _ _ (cover0_A_2 c i a1 h1 a2 h2 a3 h3 a4 h4 hc x l)]
  unfold kernelRun0_A
  dsimp only
  sl_unfold_words
  rw [View.canon_cons_unit_zero (S := S1024x512) hz, View.readCov_unit_zero (S := S1024x512) _ hz]
  simp only [View.readAt_eq_ld, h1.read_unread, h2.read_unread, View.ld_unit_zero (S := S2048x512) hz,
    View.ld_unit_zero (S := S2048x1) hz, View.ld_unit_zero (S := S1024x512) hz]

/-- The first tile adds its counts to the zero block it has just stored. -/
theorem counts_first (hc : cond0_0 i) :
    out0_A_3 c i a1 h1 a2 h2 a3 h3 a4 h4 hc x l = k0_pay5 l (k0_pay2 (F := F)) := by
  unfold out0_A_3
  rw [View.read_writes_eq_canon _ _ _ (cover0_A_3 c i a1 h1 a2 h2 a3 h3 a4 h4 hc x l)]
  unfold kernelRun0_A
  dsimp only
  sl_unfold_words
  rw [View.canon_cons_unit_zero (S := S1024x128) hz, View.readCov_unit_zero (S := S1024x128) _ hz]
  simp only [View.readAt_eq_ld, h2.read_unread, View.ld_unit_zero (S := S2048x1) hz,
    View.ld_unit_zero (S := S1024x128) hz]

end Cases

/-! ## One tile's update at the exact values -/

section Exact

open Idealize.ShloMosaic.ValueIdx

/-- A class number below 1024, as a 32-bit word read signed, is itself. -/
theorem toInt_ofNat_small (k : ℕ) (hk : k < 1024) : (BitVec.ofNat 32 k).toInt = (k : ℤ) := by
  have h1 : (BitVec.ofNat 32 k).toNat = k := by
    rw [BitVec.toNat_ofNat]; exact Nat.mod_eq_of_lt (by omega)
  rw [BitVec.toInt_eq_toNat_of_lt (by rw [h1]; omega), h1]

/-- So a word is that class's word exactly when its signed value is the class number. -/
theorem word_eq_iff (b : BitVec 32) (k : ℕ) (hk : k < 1024) : b = BitVec.ofNat 32 k ↔ b.toInt = (k : ℤ) := by
  constructor
  · rintro rfl; exact toInt_ofNat_small k hk
  · intro h; apply BitVec.eq_of_toInt_eq; rw [h, toInt_ofNat_small k hk]

set_option maxHeartbeats 400000 in
/-- The indicator matrix at (r, k): one when row r's class word is k, else zero. -/
theorem onehot_apply (l : Vec Ideal S2048x1 .i32) (r : Fin 2048) (k : Fin 1024) :
    k0_pay3 (F := Ideal) l (ix2 r k) = if (l (ix2 r (0 : Fin 1))).toInt = (k.val : ℤ) then (1 : EReal) else 0 := by
  unfold k0_pay3
  rw [truncf_apply, sitofp_apply, extui_apply]
  show FloatOps.sitofp (F := Ideal) .f32 ((IntOp.cmpi .eq (broadcastTo S2048x1024 (shapeCast S2048x1 l shapeCasts_S2048x1_S2048x1) broadcasts_S2048x1_S2048x1024 (ix2 r k))
      (iota .tc S2048x1024 32 [1] iota_S2048x1024_d1_w32 (ix2 r k))).setWidth 32) = _
  rw [broadcastTo_apply _ _ (ix2 r k) (ix2 r (0 : Fin 1)) (fun a => by match a with | ⟨0, _⟩ => rfl | ⟨1, _⟩ => rfl), shapeCast_self]
  have hi : iota .tc S2048x1024 32 [1] iota_S2048x1024_d1_w32 (ix2 r k) = BitVec.ofNat 32 k.val := by
    unfold iota; simp
  rw [hi]
  by_cases h : (l (ix2 r (0 : Fin 1))).toInt = (k.val : ℤ)
  · rw [if_pos h]
    have e := (word_eq_iff _ k.val k.isLt).mpr h
    rw [e]
    have hc : IntOp.cmpi .eq (BitVec.ofNat 32 k.val) (BitVec.ofNat 32 k.val) = 1#1 := by simp [IntOp.cmpi]
    rw [hc]
    show (((BitVec.setWidth 32 1#1).toInt : ℝ) : EReal) = 1
    rw [show (BitVec.setWidth 32 1#1).toInt = 1 from by decide]
    simp
  · rw [if_neg h]
    have e : ¬ l (ix2 r (0 : Fin 1)) = BitVec.ofNat 32 k.val := fun e => h ((word_eq_iff _ k.val k.isLt).mp e)
    have hc : IntOp.cmpi .eq (l (ix2 r (0 : Fin 1))) (BitVec.ofNat 32 k.val) = 0#1 := by
      have hb : (l (ix2 r (0 : Fin 1)) == BitVec.ofNat 32 k.val) = false := beq_eq_false_iff_ne.mpr e
      simp [IntOp.cmpi, hb]
    rw [hc]
    show (((BitVec.setWidth 32 0#1).toInt : ℝ) : EReal) = 0
    rw [show (BitVec.setWidth 32 0#1).toInt = 0 from by decide]
    simp

/-! The product with the features contracts the tile's row axis: which operand elements meet at (k, d). -/
theorem lhsD2_0 (j : S1024x512.Idx) (q : dot_S2048x1024_S2048x512_S1024x512_0_0_1_1_n_n.contr.Idx) :
    (dot_S2048x1024_S2048x512_S1024x512_0_0_1_1_n_n.lhsIdx j q 0).val = (q ⟨0, by decide⟩).val :=
  dot_S2048x1024_S2048x512_S1024x512_0_0_1_1_n_n.lhsIdx_val_of_single rfl j q
theorem lhsD2_1 (j : S1024x512.Idx) (q : dot_S2048x1024_S2048x512_S1024x512_0_0_1_1_n_n.contr.Idx) :
    (dot_S2048x1024_S2048x512_S1024x512_0_0_1_1_n_n.lhsIdx j q 1).val = (j 0).val := by
  unfold DotDims.lhsIdx
  rw [dif_neg (show ¬(1 : Fin S2048x1024.rank) ∈ dot_S2048x1024_S2048x512_S1024x512_0_0_1_1_n_n.lhsBatch by decide), dif_pos (show (1 : Fin S2048x1024.rank) ∈ dot_S2048x1024_S2048x512_S1024x512_0_0_1_1_n_n.lhsNonContracting by decide)]
  rfl
theorem rhsD2_0 (j : S1024x512.Idx) (q : dot_S2048x1024_S2048x512_S1024x512_0_0_1_1_n_n.contr.Idx) :
    (dot_S2048x1024_S2048x512_S1024x512_0_0_1_1_n_n.rhsIdx j q 0).val = (q ⟨0, by decide⟩).val :=
  dot_S2048x1024_S2048x512_S1024x512_0_0_1_1_n_n.rhsIdx_val_of_single rfl j q
theorem rhsD2_1 (j : S1024x512.Idx) (q : dot_S2048x1024_S2048x512_S1024x512_0_0_1_1_n_n.contr.Idx) :
    (dot_S2048x1024_S2048x512_S1024x512_0_0_1_1_n_n.rhsIdx j q 1).val = (j 1).val := by
  unfold DotDims.rhsIdx
  rw [dif_neg (show ¬(1 : Fin S2048x512.rank) ∈ dot_S2048x1024_S2048x512_S1024x512_0_0_1_1_n_n.rhsBatch by decide), dif_pos (show (1 : Fin S2048x512.rank) ∈ dot_S2048x1024_S2048x512_S1024x512_0_0_1_1_n_n.rhsNonContracting by decide)]
  rfl

set_option maxHeartbeats 400000 in
/-- One tile's update of the sums at (k, d): what was there plus the tile's rows of class k, coordinate d. -/
theorem pay4_apply (x : Vec Ideal S2048x512 .f32) (l : Vec Ideal S2048x1 .i32) (s : Vec Ideal S1024x512 .f32) (k : Fin 1024) (d : Fin 512) :
    k0_pay4 (F := Ideal) x l s (ix2 k d)
      = s (ix2 k d) + ∑ r : Fin 2048, (if (l (ix2 r (0 : Fin 1))).toInt = (k.val : ℤ) then x (ix2 r d) else 0) := by
  unfold k0_pay4
  rw [addf_apply, shapeCast_self]
  refine congrArg (s (ix2 k d) + ·) ?_
  show FloatOps.matmul dot_S2048x1024_S2048x512_S1024x512_0_0_1_1_n_n none (k0_pay3 (F := Ideal) l) (truncf .bf16 x bitsLt_bf16_f32) (constant S1024x512 .f32 0x00000000#32) (ix2 k d) = _
  rw [Ideal.matmul_constant_zero_apply, ← Equiv.sum_comp (contrEquiv1 dot_S2048x1024_S2048x512_S1024x512_0_0_1_1_n_n 2048 rfl rfl).symm]
  refine Finset.sum_congr rfl fun r _ => ?_
  have hk := contrEquiv1_symm_val dot_S2048x1024_S2048x512_S1024x512_0_0_1_1_n_n 2048 rfl rfl r
  have el : dot_S2048x1024_S2048x512_S1024x512_0_0_1_1_n_n.lhsIdx (ix2 k d) ((contrEquiv1 dot_S2048x1024_S2048x512_S1024x512_0_0_1_1_n_n 2048 rfl rfl).symm r) = ix2 r k := funext fun a => Fin.ext (by
    match a with
    | ⟨0, _⟩ => exact (lhsD2_0 _ _).trans hk
    | ⟨1, _⟩ => exact lhsD2_1 _ _)
  have er : dot_S2048x1024_S2048x512_S1024x512_0_0_1_1_n_n.rhsIdx (ix2 k d) ((contrEquiv1 dot_S2048x1024_S2048x512_S1024x512_0_0_1_1_n_n 2048 rfl rfl).symm r) = ix2 r d := funext fun a => Fin.ext (by
    match a with
    | ⟨0, _⟩ => exact (rhsD2_0 _ _).trans hk
    | ⟨1, _⟩ => exact rhsD2_1 _ _)
  rw [el, er, onehot_apply, truncf_apply]
  split_ifs
  · exact one_mul _
  · exact zero_mul _

/-! The product with the matrix of ones: the same contraction. -/
theorem lhsD3_0 (j : S1024x128.Idx) (q : dot_S2048x1024_S2048x128_S1024x128_0_0_1_1_n_n.contr.Idx) :
    (dot_S2048x1024_S2048x128_S1024x128_0_0_1_1_n_n.lhsIdx j q 0).val = (q ⟨0, by decide⟩).val :=
  dot_S2048x1024_S2048x128_S1024x128_0_0_1_1_n_n.lhsIdx_val_of_single rfl j q
theorem lhsD3_1 (j : S1024x128.Idx) (q : dot_S2048x1024_S2048x128_S1024x128_0_0_1_1_n_n.contr.Idx) :
    (dot_S2048x1024_S2048x128_S1024x128_0_0_1_1_n_n.lhsIdx j q 1).val = (j 0).val := by
  unfold DotDims.lhsIdx
  rw [dif_neg (show ¬(1 : Fin S2048x1024.rank) ∈ dot_S2048x1024_S2048x128_S1024x128_0_0_1_1_n_n.lhsBatch by decide), dif_pos (show (1 : Fin S2048x1024.rank) ∈ dot_S2048x1024_S2048x128_S1024x128_0_0_1_1_n_n.lhsNonContracting by decide)]
  rfl
theorem rhsD3_0 (j : S1024x128.Idx) (q : dot_S2048x1024_S2048x128_S1024x128_0_0_1_1_n_n.contr.Idx) :
    (dot_S2048x1024_S2048x128_S1024x128_0_0_1_1_n_n.rhsIdx j q 0).val = (q ⟨0, by decide⟩).val :=
  dot_S2048x1024_S2048x128_S1024x128_0_0_1_1_n_n.rhsIdx_val_of_single rfl j q
theorem rhsD3_1 (j : S1024x128.Idx) (q : dot_S2048x1024_S2048x128_S1024x128_0_0_1_1_n_n.contr.Idx) :
    (dot_S2048x1024_S2048x128_S1024x128_0_0_1_1_n_n.rhsIdx j q 1).val = (j 1).val := by
  unfold DotDims.rhsIdx
  rw [dif_neg (show ¬(1 : Fin S2048x128.rank) ∈ dot_S2048x1024_S2048x128_S1024x128_0_0_1_1_n_n.rhsBatch by decide), dif_pos (show (1 : Fin S2048x128.rank) ∈ dot_S2048x1024_S2048x128_S1024x128_0_0_1_1_n_n.rhsNonContracting by decide)]
  rfl

/-- The 16-bit word of one is one. -/
theorem ofBits_one_bf16 : Ideal.ofBits .bf16 0x3F80#16 = (1 : EReal) := by
  simp [Ideal.ofBits, Ideal.ieee, -EReal.coe_mul]; norm_num

set_option maxHeartbeats 400000 in
/-- One tile's update of the counts at (k, q), every lane q alike: what was there plus the number of the tile's rows of class k. -/
theorem pay5_apply (l : Vec Ideal S2048x1 .i32) (n : Vec Ideal S1024x128 .f32) (k : Fin 1024) (q : Fin 128) :
    k0_pay5 (F := Ideal) l n (ix2 k q)
      = n (ix2 k q) + ∑ r : Fin 2048, (if (l (ix2 r (0 : Fin 1))).toInt = (k.val : ℤ) then (1 : EReal) else 0) := by
  unfold k0_pay5
  rw [addf_apply, shapeCast_self]
  refine congrArg (n (ix2 k q) + ·) ?_
  show FloatOps.matmul dot_S2048x1024_S2048x128_S1024x128_0_0_1_1_n_n none (k0_pay3 (F := Ideal) l) (broadcast S2048x128 (Scalar.ofBits (F := Ideal) .bf16 0x3F80#16)) (constant S1024x128 .f32 0x00000000#32) (ix2 k q) = _
  rw [Ideal.matmul_constant_zero_apply, ← Equiv.sum_comp (contrEquiv1 dot_S2048x1024_S2048x128_S1024x128_0_0_1_1_n_n 2048 rfl rfl).symm]
  refine Finset.sum_congr rfl fun r _ => ?_
  have hk := contrEquiv1_symm_val dot_S2048x1024_S2048x128_S1024x128_0_0_1_1_n_n 2048 rfl rfl r
  have el : dot_S2048x1024_S2048x128_S1024x128_0_0_1_1_n_n.lhsIdx (ix2 k q) ((contrEquiv1 dot_S2048x1024_S2048x128_S1024x128_0_0_1_1_n_n 2048 rfl rfl).symm r) = ix2 r k := funext fun a => Fin.ext (by
    match a with
    | ⟨0, _⟩ => exact (lhsD3_0 _ _).trans hk
    | ⟨1, _⟩ => exact lhsD3_1 _ _)
  rw [el, onehot_apply, broadcast_apply]
  show _ * Ideal.ofBits .bf16 0x3F80#16 = _
  rw [ofBits_one_bf16, mul_one]

end Exact

/-! ## The two blocks after each tile -/

variable (V : (c : Dev nD) → (b : Ref sig .tc) → Buf (Elt F) ((c : Thread nD τ).loc b))

/-- The features of tile `t`, and its class words. -/
abbrev xtile (c : Dev nD) (t : Fin cfg0.N) : Vec F S2048x512 .f32 := iblk0 V c 0 t
abbrev ltile (c : Dev nD) (t : Fin cfg0.N) : Vec F S2048x1 .i32 := iblk0 V c 1 t

/-- The carried sums after tile `n`: the first tile's product over zero, then each tile's product added. -/
def sumsAt (c : Dev nD) : (n : ℕ) → n < cfg0.N → Vec F S1024x512 .f32
  | 0, h => k0_pay4 (xtile V c ⟨0, h⟩) (ltile V c ⟨0, h⟩) (k0_pay1 (F := F))
  | n + 1, h => k0_pay4 (xtile V c ⟨n + 1, h⟩) (ltile V c ⟨n + 1, h⟩) (sumsAt c n (Nat.lt_of_succ_lt h))

/-- The carried counts after tile `n`. -/
def countsAt (c : Dev nD) : (n : ℕ) → n < cfg0.N → Vec F S1024x128 .f32
  | 0, h => k0_pay5 (ltile V c ⟨0, h⟩) (k0_pay2 (F := F))
  | n + 1, h => k0_pay5 (ltile V c ⟨n + 1, h⟩) (countsAt c n (Nat.lt_of_succ_lt h))

/-- What the two staging blocks hold after tile `n` is that pair: by induction on the tile. -/
theorem outsAt_eq (c : Dev nD) : ∀ (n : ℕ) (h : n < cfg0.N), outsAt0 V c n h = (sumsAt V c n h, countsAt V c n h)
  | 0, h => by
    rw [outsAt0_A V c ⟨0, h⟩ rfl, sums_first, counts_first]
    rfl
  | n + 1, h => by
    have hN : cfg0.N = 64 := N_0
    have hB : ¬(⟨n + 1, h⟩ : Fin cfg0.N).val % 64 = 0 := by dsimp only; omega
    rw [outsAt0_B V c ⟨n + 1, h⟩ hB, sums_later, counts_later]
    show (k0_pay4 _ _ (outsAt0 V c n _).1, k0_pay5 _ (outsAt0 V c n _).2) = _
    rw [outsAt_eq c n]
    rfl

/-! ## The carried blocks after tile n, in closed form -/

section Closed

open Idealize.ShloMosaic.ValueIdx

variable (W : (c : Dev nD) → (b : Ref sig .tc) → Buf (Elt Ideal) ((c : Thread nD τ).loc b))

/-- Tile t's rows of class k, coordinate d, summed (zero past the last tile). -/
def tileSum (c : Dev nD) (k : Fin 1024) (d : Fin 512) (t : ℕ) : EReal :=
  if ht : t < cfg0.N then
    ∑ r : Fin 2048, (if (ltile W c ⟨t, ht⟩ (ix2 r (0 : Fin 1))).toInt = (k.val : ℤ) then xtile W c ⟨t, ht⟩ (ix2 r d) else 0)
  else 0

/-- The number of tile t's rows of class k (zero past the last tile). -/
def tileCnt (c : Dev nD) (k : Fin 1024) (t : ℕ) : EReal :=
  if ht : t < cfg0.N then
    ∑ r : Fin 2048, (if (ltile W c ⟨t, ht⟩ (ix2 r (0 : Fin 1))).toInt = (k.val : ℤ) then (1 : EReal) else 0)
  else 0

theorem tileSum_of_lt (c : Dev nD) (k : Fin 1024) (d : Fin 512) (t : ℕ) (ht : t < cfg0.N) :
    tileSum W c k d t
      = ∑ r : Fin 2048, (if (ltile W c ⟨t, ht⟩ (ix2 r (0 : Fin 1))).toInt = (k.val : ℤ) then xtile W c ⟨t, ht⟩ (ix2 r d) else 0) :=
  dif_pos ht

theorem tileCnt_of_lt (c : Dev nD) (k : Fin 1024) (t : ℕ) (ht : t < cfg0.N) :
    tileCnt W c k t
      = ∑ r : Fin 2048, (if (ltile W c ⟨t, ht⟩ (ix2 r (0 : Fin 1))).toInt = (k.val : ℤ) then (1 : EReal) else 0) :=
  dif_pos ht

/-- After tile n the sums hold, at (k, d), the class-k rows of tiles 0 … n: by induction on the tile. -/
theorem sumsAt_apply (c : Dev nD) (k : Fin 1024) (d : Fin 512) :
    ∀ (n : ℕ) (h : n < cfg0.N), sumsAt W c n h (ix2 k d) = ∑ t ∈ Finset.range (n + 1), tileSum W c k d t
  | 0, h => by
    show k0_pay4 (F := Ideal) _ _ (k0_pay1 (F := Ideal)) (ix2 k d) = _
    rw [pay4_apply, Finset.sum_range_one, tileSum_of_lt W c k d 0 h]
    show Ideal.ofBits .f32 0x00000000#32 + _ = _
    rw [Ideal.ofBits_zero_f32, zero_add]
  | n + 1, h => by
    show k0_pay4 (F := Ideal) _ _ (sumsAt W c n _) (ix2 k d) = _
    rw [pay4_apply, sumsAt_apply c k d n, Finset.sum_range_succ _ (n + 1), tileSum_of_lt W c k d (n + 1) h]

/-- After tile n the counts hold, in every lane of row k, the number of class-k rows of tiles 0 … n. -/
theorem countsAt_apply (c : Dev nD) (k : Fin 1024) (q : Fin 128) :
    ∀ (n : ℕ) (h : n < cfg0.N), countsAt W c n h (ix2 k q) = ∑ t ∈ Finset.range (n + 1), tileCnt W c k t
  | 0, h => by
    show k0_pay5 (F := Ideal) _ (k0_pay2 (F := Ideal)) (ix2 k q) = _
    rw [pay5_apply, Finset.sum_range_one, tileCnt_of_lt W c k 0 h]
    show Ideal.ofBits .f32 0x00000000#32 + _ = _
    rw [Ideal.ofBits_zero_f32, zero_add]
  | n + 1, h => by
    show k0_pay5 (F := Ideal) _ (countsAt W c n _) (ix2 k q) = _
    rw [pay5_apply, countsAt_apply c k q n, Finset.sum_range_succ _ (n + 1), tileCnt_of_lt W c k (n + 1) h]

end Closed

/-! ## The tiles are the rows of the arrays the region finds; the 64 tiles are all 131072 rows -/

section Rows

open Idealize.ShloMosaic.ValueIdx Cert.RangeLoss

variable (W : (c : Dev nD) → (b : Ref sig .tc) → Buf (Elt Ideal) ((c : Thread nD τ).loc b))

/-- Tile t of the features starts at row-block t, column-block 0; the class column's likewise. -/
theorem tile_index_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem tile_index_l : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row r of tile t is row 2048 t + r of the features. -/
theorem xtile_apply (c : Dev nD) (t : Fin cfg0.N) (r : Fin 2048) (d : Fin 512) (hn : 2048 * t.val + r.val < 131072) :
    xtile W c t (ix2 r d) = W c main_arg0 (ix2 (⟨2048 * t.val + r.val, hn⟩ : Fin 131072) d) := by
  show ((cfg0.win 0).blk t).view.read (Elt Ideal) (W c (Pipeline.arrRef spec0 0)) (ix2 r d) = _
  rw [View.read_apply]
  show W c main_arg0 _ = W c main_arg0 _
  refine congrArg (W c main_arg0) (funext fun a => Fin.ext ?_)
  match a with
  | ⟨0, _⟩ => show win0_0.index t 0 * 2048 + 1 * r.val = 2048 * t.val + r.val; rw [(tile_index_x t).1]; omega
  | ⟨1, _⟩ => show win0_0.index t 1 * 512 + 1 * d.val = d.val; rw [(tile_index_x t).2]; omega

/-- Row r of tile t of the class column is row 2048 t + r of it. -/
theorem ltile_apply (c : Dev nD) (t : Fin cfg0.N) (r : Fin 2048) (hn : 2048 * t.val + r.val < 131072) :
    ltile W c t (ix2 r (0 : Fin 1)) = W c main_v0 (ix2 (⟨2048 * t.val + r.val, hn⟩ : Fin 131072) (0 : Fin 1)) := by
  show ((cfg0.win 1).blk t).view.read (Elt Ideal) (W c (Pipeline.arrRef spec0 1)) (ix2 r (0 : Fin 1)) = _
  rw [View.read_apply]
  show W c main_v0 _ = W c main_v0 _
  refine congrArg (W c main_v0) (funext fun a => Fin.ext ?_)
  match a with
  | ⟨0, _⟩ => show win0_1.index t 0 * 2048 + 1 * r.val = 2048 * t.val + r.val; rw [(tile_index_l t).1]; omega
  | ⟨1, _⟩ => show win0_1.index t 1 * 1 + 1 * 0 = 0; rw [(tile_index_l t).2]

/-- A sum over all rows is the sum over the 64 tiles of the sum over a tile's 2048 rows. -/
theorem sum_rows_eq_sum_tiles (g : Fin 131072 → EReal) :
    ∑ n, g n = ∑ t : Fin 64, ∑ r : Fin 2048, g ⟨2048 * t.val + r.val, by have := t.isLt; have := r.isLt; omega⟩ := by
  rw [← (finProdFinEquiv : Fin 64 × Fin 2048 ≃ Fin 131072).sum_comp, Fintype.sum_prod_type]
  refine Finset.sum_congr rfl fun t _ => Finset.sum_congr rfl fun r _ => congrArg g (Fin.ext ?_)
  show ((finProdFinEquiv (t, r) : Fin (64 * 2048)) : ℕ) = 2048 * t.val + r.val
  rw [finProdFinEquiv_apply_val]; dsimp only; omega

/-- THE SUMS the first region leaves: after the last tile, (k, d) holds the sum of coordinate d over ALL rows of class k of the features the region found, the classes read off the column it found. -/
theorem sums_final (c : Dev nD) (k : Fin 1024) (d : Fin 512) (h : 63 < cfg0.N) :
    sumsAt W c 63 h (ix2 k d)
      = segSum (fun n d => W c main_arg0 (ix2 n d)) (fun n => W c main_v0 (ix2 n (0 : Fin 1))) k.val d := by
  rw [sumsAt_apply, Finset.sum_range]
  unfold segSum
  rw [sum_rows_eq_sum_tiles]
  show ∑ t : Fin 64, tileSum W c k d t.val = _
  refine Finset.sum_congr rfl fun t _ => ?_
  have hN : cfg0.N = 64 := N_0
  have ht : t.val < cfg0.N := by have := t.isLt; omega
  rw [tileSum_of_lt W c k d t.val ht]
  refine Finset.sum_congr rfl fun r _ => ?_
  have hn : 2048 * t.val + r.val < 131072 := by have := t.isLt; have := r.isLt; omega
  rw [xtile_apply W c ⟨t.val, ht⟩ r d hn, ltile_apply W c ⟨t.val, ht⟩ r hn]

/-- THE COUNTS it leaves: every lane of row k holds the number of rows of class k. -/
theorem counts_final (c : Dev nD) (k : Fin 1024) (q : Fin 128) (h : 63 < cfg0.N) :
    countsAt W c 63 h (ix2 k q) = segCnt (fun n => W c main_v0 (ix2 n (0 : Fin 1))) k.val := by
  rw [countsAt_apply, Finset.sum_range]
  unfold segCnt
  rw [sum_rows_eq_sum_tiles]
  show ∑ t : Fin 64, tileCnt W c k t.val = _
  refine Finset.sum_congr rfl fun t _ => ?_
  have hN : cfg0.N = 64 := N_0
  have ht : t.val < cfg0.N := by have := t.isLt; omega
  rw [tileCnt_of_lt W c k t.val ht]
  refine Finset.sum_congr rfl fun r _ => ?_
  have hn : 2048 * t.val + r.val < 131072 := by have := t.isLt; have := r.isLt; omega
  rw [ltile_apply W c ⟨t.val, ht⟩ r hn]

end Rows

end Cert.KernelIdeal.Accum

end
-- ==== Proof.PairValue.lean ====
/-
  The second kernel region's stored value is the loss of the specification.

  The region reads two blocks: `x0`, 1024 rows of 512 coordinates, whose rows below 1000 are the class sums, and `x1`, 1024
  rows of 128 lanes, whose lane 0 holds, on the rows below 1000, the class counts. Rows 1000 to 1023 are padding and may
  hold anything. From them it computes, in this order,
    * the centres `cen`: each row of sums divided by `max count 1`;
    * the squared norms `nrm`: the sum over the 512 coordinates of a centre's squares, kept as a column;
    * the Gram matrix `grm`: the centres multiplied with themselves over the coordinate axis, 1024 × 1024;
    * the distances `dst`: `|a|² + |b|² - 2 a·b`;
    * the masked distances `mskd`: an entry is kept where its row and its column are below 1000 and it is positive, and is
      `+∞` elsewhere;
    * the result `res`: the minimum over each row, then over the column of row minima, both from `+∞`; then
      `max (1 - minimum) 0`; the region stores this times one.
  Each stage is read at an index `(p, q)` (`cen_apply` … `mskd_apply`). On the rows below 1000 the stages are the
  specification's `ctr`, `sqn`, `gram`, `dist`, `msk` (`cen_eq_ctr` … `mskd_eq_msk`); an entry whose row or column is a
  padding row is `+∞` whatever the padding holds (`mskd_eq_top`). The two-stage minimum is carried by its universal property:
  a number lies below it exactly when it lies below every one of the 1024 × 1024 masked entries (`le_rowmin_iff`,
  `le_colmin_iff`), and, `+∞` bounding nothing, exactly when it lies below every entry of the 1000 × 1000 corner, which is
  what lies below the specification's `dmin` (`le_dmin_iff`). Two extended reals with the same lower bounds are equal.
-/
import proofs.«410029_j64123861729955_1_alg».proof.Proof.Spec
import proofs.«410029_j64123861729955_1_alg».proof.Proof.Gen.KernelIdeal.Skeleton
import Idealize.ShloMosaic.Lib.ValueIdx
import Idealize.ShloMosaic.Lib.ValueLayout
import Idealize.ShloMosaic.Lib.Pipeline.Value
import Idealize.ShloMosaic.Lib.WordArith
import Idealize.ShloMosaic.Lib.StableHlo.Predicate
import Idealize.ShloMosaic.PureOps.Ideal.Laws
import Idealize.ShloMosaic.PureOps.Reduce

noncomputable section

namespace Cert.KernelIdeal.PairValue

open Idealize.ShloMosaic Idealize.ShloMosaic.ValueIdx Cert.RangeLoss
open Cert.KernelIdeal Cert.KernelIdeal.Gen

/-- The centres. -/
def cen (x0 : Vec Ideal S1024x512 .f32) (x1 : Vec Ideal S1024x128 .f32) : FVec Ideal S1024x512 .f32 :=
  divf (shapeCast S1024x512 x0 shapeCasts_S1024x512_S1024x512)
    (broadcastTo S1024x512
      (maximumf (extractStridedSlice S1024x1 ![0, 0] (shapeCast S1024x128 x1 shapeCasts_S1024x128_S1024x128) slices_S1024x128_o0_0_S1024x1)
        (broadcast S1024x1 (Scalar.ofBits .f32 0x3F800000#32)))
      broadcasts_S1024x1_S1024x512)

/-- The squared norms, as a column. -/
def nrm (c : FVec Ideal S1024x512 .f32) : FVec Ideal S1024x1 .f32 :=
  shapeCast S1024x1 (multiReduction .add [1] S1024 (mulf c c) 0x00000000#32 reduces_S1024x512_S1024 (.inl rfl) rfl) shapeCasts_S1024_S1024x1

/-- The Gram matrix. -/
def grm (c : FVec Ideal S1024x512 .f32) : FVec Ideal S1024x1024 .f32 :=
  matmul dot_S1024x512_S1024x512_S1024x1024_1_1_0_0_n_n none (truncf .bf16 c bitsLt_bf16_f32) (truncf .bf16 c bitsLt_bf16_f32)
    (constant S1024x1024 .f32 0x00000000#32)

/-- The distances. -/
def dst (n : FVec Ideal S1024x1 .f32) (g : FVec Ideal S1024x1024 .f32) : FVec Ideal S1024x1024 .f32 :=
  subf (addf (broadcastTo S1024x1024 n broadcasts_S1024x1_S1024x1024)
      (broadcastTo S1024x1024 (transpose S1x1024 [1, 0] n transposes_S1024x1_p1_0_S1x1024) broadcasts_S1x1024_S1024x1024))
    (mulf (broadcast S1024x1024 (Scalar.ofBits .f32 0x40000000#32)) g)

/-- The masked distances. -/
def mskd (d : FVec Ideal S1024x1024 .f32) : FVec Ideal S1024x1024 .f32 :=
  select
    (andi
      (andi (cmpi .slt (iota .tc S1024x1024 32 [0] iota_S1024x1024_d0_w32) (broadcast S1024x1024 1000#32))
        (cmpi .slt (iota .tc S1024x1024 32 [1] iota_S1024x1024_d1_w32) (broadcast S1024x1024 1000#32)))
      (cmpf .ogt d (broadcast S1024x1024 (Scalar.ofBits .f32 0x00000000#32))))
    d (broadcast S1024x1024 (Scalar.ofBits .f32 0x7F800000#32))

/-- The least entry, then the loss before its unit factor. -/
def res (m : FVec Ideal S1024x1024 .f32) : FVec Ideal S1x1 .f32 :=
  maximumf
    (subf (broadcast S1x1 (Scalar.ofBits .f32 0x3F800000#32))
      (shapeCast S1x1
        (multiReduction .minimumf [0] S1
          (shapeCast S1024x1 (multiReduction .minimumf [1] S1024 m 0x7F800000#32 reduces_S1024x1024_S1024 (.inl rfl) rfl) shapeCasts_S1024_S1024x1)
          0x7F800000#32 reduces_S1024x1_S1 (.inl rfl) rfl)
        shapeCasts_S1_S1x1))
    (broadcast S1x1 (Scalar.ofBits .f32 0x00000000#32))

set_option maxRecDepth 65536 in
/-- The region's arithmetic is the composition of the six stages: the same term, its intermediate values named. -/
theorem pay2_eq (x0 : Vec Ideal S1024x512 .f32) (x1 : Vec Ideal S1024x128 .f32) :
    k1_pay2 (F := Ideal) x0 x1 = res (mskd (dst (nrm (cen x0 x1)) (grm (cen x0 x1)))) := rfl

section Layout
variable {α : Type}

/-- A column `[a, 1]` broadcast over the columns of `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

set_option maxHeartbeats 50000 in
/-- A centre's coordinate: the class sum over the class count, a count below one read as one. -/
theorem cen_apply (x0 : Vec Ideal S1024x512 .f32) (x1 : Vec Ideal S1024x128 .f32) (p : Fin 1024) (d : Fin 512) :
    cen x0 x1 (ix2 p d) = Ideal.div (x0 (ix2 p d)) (max (x1 (ix2 p (0 : Fin 128))) (Ideal.ofBits .f32 0x3F800000#32)) := by
  unfold cen
  rw [divf_apply, shapeCast_self, broadcastTo_a1_ab_apply, maximumf_apply, broadcast_apply,
    slice2_axis1_apply 0 _ _ p (0 : Fin 1) (0 : Fin 128) rfl, shapeCast_self]
  rfl

set_option maxHeartbeats 50000 in
/-- The index over row `p` with lane `k` inserted is `(p, k)`. -/
theorem lift_row (h : S1024x512.Reduces [1] S1024) (p : Fin 1024) (k : Fin 512) : h.lift (ix1 p) k = ix2 p k :=
  funext fun a => Fin.ext (by match a with | ⟨0, _⟩ => rfl | ⟨1, _⟩ => rfl)

set_option maxHeartbeats 50000 in
/-- A squared norm: the sum of the squares of the row's coordinates. -/
theorem nrm_apply (c : FVec Ideal S1024x512 .f32) (p : Fin 1024) (u : Fin 1) :
    nrm c (ix2 p u) = ∑ d : Fin 512, c (ix2 p d) * c (ix2 p d) := by
  unfold nrm
  rw [shapeCast_a_a1_apply]
  refine (Ideal.multiReduction_add_single _ _ reduces_S1024x512_S1024 _ _ _).trans ?_
  show ∑ k : Fin 512, _ = _
  refine Finset.sum_congr rfl fun k _ => ?_
  rw [lift_row, mulf_apply]

/-! The product of the centres with themselves contracts the lane axis of both operands: at the result index
`(p, q)` and the contraction coordinate `k` the left factor is read at `(p, k)` and the right one at `(q, k)`. -/

theorem gram_lhs_0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

theorem gram_lhs_1 (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k

theorem gram_rhs_0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

theorem gram_rhs_1 (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

set_option maxHeartbeats 100000 in
/-- An entry of the Gram matrix: the inner product of two rows of centres. -/
theorem grm_apply (c : FVec Ideal S1024x512 .f32) (p q : Fin 1024) :
    grm c (ix2 p q) = ∑ d : Fin 512, c (ix2 p d) * c (ix2 q d) := by
  unfold grm
  simp only [matmul]
  rw [Ideal.matmul_constant_zero_apply,
    ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q)
      ((ValueIdx.contrEquiv1 dot_S1024x512_S1024x512_S1024x1024_1_1_0_0_n_n 512 rfl rfl).symm k) = ix2 p k :=
    funext fun a => Fin.ext (by
      match a with
      | ⟨0, _⟩ => exact gram_lhs_0 _ _
      | ⟨1, _⟩ => exact (gram_lhs_1 _ _).trans hk)
  have er : dot_S1024x512_S1024x512_S1024x1024_1_1_0_0_n_n.rhsIdx (ix2 p q)
      ((ValueIdx.contrEquiv1 dot_S1024x512_S1024x512_S1024x1024_1_1_0_0_n_n 512 rfl rfl).symm k) = ix2 q k :=
    funext fun a => Fin.ext (by
      match a with
      | ⟨0, _⟩ => exact gram_rhs_0 _ _
      | ⟨1, _⟩ => exact (gram_rhs_1 _ _).trans hk)
  rw [el, er]
  rfl

set_option maxHeartbeats 50000 in
/-- An entry of the distance matrix: the two squared norms, less twice the inner product. -/
theorem dst_apply (n : FVec Ideal S1024x1 .f32) (g : FVec Ideal S1024x1024 .f32) (p q : Fin 1024) :
    dst n g (ix2 p q)
      = (n (ix2 p (0 : Fin 1)) + n (ix2 q (0 : Fin 1))) - Ideal.ofBits .f32 0x40000000#32 * g (ix2 p q) := by
  unfold dst
  rw [subf_apply, addf_apply, mulf_apply, broadcast_apply, broadcastTo_a1_ab_apply, broadcastTo_1b_ab_apply,
    transpose_ix2_apply]
  rfl

/-- The word of a row or column number below 1024, compared signed with the word of 1000: the bit of the number being
    below 1000. -/
theorem cmpi_slt_1000 (p : Fin 1024) :
    IntOp.cmpi .slt (BitVec.ofNat 32 p.val) 1000#32 = BitVec.ofBool (decide (p.val < 1000)) := by
  have hp := p.isLt
  have key := StableHlo.Predicate.slt_ofNat_iff p.val 1000 (by omega) (by omega)
  by_cases h : p.val < 1000
  · rw [decide_eq_true h]
    exact key.2 h
  · rw [decide_eq_false h]
    exact eq_zero_of_ne_one fun e => h (key.1 e)

set_option maxHeartbeats 50000 in
/-- An entry of the masked matrix: inside the 1000 × 1000 corner the distance where it is positive and `+∞` where it is
    not; outside the corner `+∞`. -/
theorem mskd_apply (d : FVec Ideal S1024x1024 .f32) (p q : Fin 1024) :
    mskd d (ix2 p q)
      = if p.val < 1000 ∧ q.val < 1000 then
          Scalar.select (Ideal.cmp .ogt (d (ix2 p q)) (Ideal.ofBits .f32 0x00000000#32)) (d (ix2 p q))
            (Ideal.ofBits .f32 0x7F800000#32)
        else Ideal.ofBits .f32 0x7F800000#32 := by
  unfold mskd
  rw [select_apply, broadcast_apply]
  show Scalar.select
      (IntOp.andi
        (IntOp.andi (IntOp.cmpi .slt (iota .tc S1024x1024 32 [0] iota_S1024x1024_d0_w32 (ix2 p q)) 1000#32)
          (IntOp.cmpi .slt (iota .tc S1024x1024 32 [1] iota_S1024x1024_d1_w32 (ix2 p q)) 1000#32))
        (Ideal.cmp .ogt (d (ix2 p q)) (Ideal.ofBits .f32 0x00000000#32)))
      (d (ix2 p q)) (Ideal.ofBits .f32 0x7F800000#32) = _
  rw [iota_single_apply, iota_single_apply]
  show Scalar.select
      (IntOp.andi
        (IntOp.andi (IntOp.cmpi .slt (BitVec.ofNat 32 p.val) 1000#32) (IntOp.cmpi .slt (BitVec.ofNat 32 q.val) 1000#32))
        (Ideal.cmp .ogt (d (ix2 p q)) (Ideal.ofBits .f32 0x00000000#32)))
      (d (ix2 p q)) (Ideal.ofBits .f32 0x7F800000#32) = _
  rw [cmpi_slt_1000, cmpi_slt_1000, WordArith.andi_ofBool]
  by_cases h : p.val < 1000 ∧ q.val < 1000
  · rw [if_pos h, decide_eq_true h.1, decide_eq_true h.2]
    show Scalar.select (IntOp.andi 1#1 _) _ _ = _
    congr 1
    generalize Ideal.cmp .ogt (d (ix2 p q)) (Ideal.ofBits .f32 0x00000000#32) = b
    revert b; decide
  · rw [if_neg h]
    have hb : (decide (p.val < 1000) && decide (q.val < 1000)) = false := by
      rw [Bool.and_eq_false_iff, decide_eq_false_iff_not, decide_eq_false_iff_not]
      exact not_and_or.1 h
    rw [hb]
    show Scalar.select (IntOp.andi 0#1 _) _ _ = _
    generalize Ideal.cmp .ogt (d (ix2 p q)) (Ideal.ofBits .f32 0x00000000#32) = b
    have : IntOp.andi 0#1 b = 0#1 := by revert b; decide
    rw [this, select_zero]

/-- What lies below a minimum over ONE axis: what lies below the accumulator's value and below every entry along that
    axis. -/
theorem le_multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) (c : EReal) :
    c ≤ multiReduction .minimumf [a] t src acc h hφ hacc j
      ↔ c ≤ Ideal.ofBits φ acc ∧ ∀ k : Fin (s.size a), c ≤ src (h.lift j k) := by
  rw [multiReduction_minimumf_eq_fold, h.fold_filter_drop_single]
  show c ≤ Finset.fold min (Ideal.ofBits φ acc) (src ∘ h.lift j) Finset.univ ↔ _
  rw [Finset.le_fold_min]
  exact and_congr_right fun _ => ⟨fun H k => H k (Finset.mem_univ k), fun H k _ => H k⟩

set_option maxHeartbeats 50000 in
/-- The index over row `p` of the square matrix with column `k` inserted is `(p, k)`. -/
theorem lift_sq_row (h : S1024x1024.Reduces [1] S1024) (p : Fin 1024) (k : Fin 1024) : h.lift (ix1 p) k = ix2 p k :=
  funext fun a => Fin.ext (by match a with | ⟨0, _⟩ => rfl | ⟨1, _⟩ => rfl)

set_option maxHeartbeats 50000 in
/-- The index over the one entry `v` of a reduced column with row `k` inserted is `(k, v)`. -/
theorem lift_col (h : S1024x1.Reduces [0] S1) (v : Fin 1) (k : Fin 1024) : h.lift (ix1 v) k = ix2 k v :=
  funext fun a => Fin.ext (by match a with | ⟨0, _⟩ => rfl | ⟨1, _⟩ => rfl)

set_option maxHeartbeats 50000 in
/-- Below the minimum of row `k` from `+∞` lies what lies below every entry of the row. -/
theorem le_rowmin_iff (m : FVec Ideal S1024x1024 .f32) (k : Fin 1024) (c : EReal) :
    c ≤ multiReduction (F := Ideal) .minimumf [1] S1024 m 0x7F800000#32 reduces_S1024x1024_S1024 (.inl rfl) rfl (ix1 k)
      ↔ ∀ q : Fin 1024, c ≤ m (ix2 k q) := by
  refine (le_multiReduction_minimumf_single m _ reduces_S1024x1024_S1024 _ _ (ix1 k) c).trans ?_
  rw [ofBits_inf]
  show (c ≤ ⊤ ∧ ∀ q : Fin 1024, _) ↔ _
  exact ⟨fun H q => by have := H.2 q; rwa [lift_sq_row] at this,
    fun H => ⟨le_top, fun q => by rw [lift_sq_row]; exact H q⟩⟩

set_option maxHeartbeats 50000 in
/-- Below the minimum of a column from `+∞` lies what lies below every entry of the column. -/
theorem le_colmin_iff (col : FVec Ideal S1024x1 .f32) (v : Fin 1) (c : EReal) :
    c ≤ multiReduction (F := Ideal) .minimumf [0] S1 col 0x7F800000#32 reduces_S1024x1_S1 (.inl rfl) rfl (ix1 v)
      ↔ ∀ k : Fin 1024, c ≤ col (ix2 k v) := by
  refine (le_multiReduction_minimumf_single col _ reduces_S1024x1_S1 _ _ (ix1 v) c).trans ?_
  rw [ofBits_inf]
  show (c ≤ ⊤ ∧ ∀ k : Fin 1024, _) ↔ _
  exact ⟨fun H k => by have := H.2 k; rwa [lift_col] at this,
    fun H => ⟨le_top, fun k => by rw [lift_col]; exact H k⟩⟩

set_option maxHeartbeats 100000 in
/-- The last stretch: if `μ` is the greatest lower bound of the entries of `m`, the result is `max (1 - μ) 0`. -/
theorem res_apply (m : FVec Ideal S1024x1024 .f32) (μ : EReal)
    (hμ : ∀ c : EReal, c ≤ μ ↔ ∀ p q : Fin 1024, c ≤ m (ix2 p q)) (y : S1x1.Idx) :
    res m y = max (Ideal.ofBits .f32 0x3F800000#32 - μ) (Ideal.ofBits .f32 0x00000000#32) := by
  obtain ⟨u, v, rfl⟩ : ∃ (u : Fin 1) (v : Fin 1), y = ix2 u v := ⟨y 0, y 1, eq_ix2 y⟩
  unfold res
  rw [maximumf_apply, subf_apply, broadcast_apply, broadcast_apply, shapeCast_a_1a_apply]
  have e : multiReduction (F := Ideal) .minimumf [0] S1
      (shapeCast S1024x1 (multiReduction (F := Ideal) .minimumf [1] S1024 m 0x7F800000#32 reduces_S1024x1024_S1024 (.inl rfl) rfl)
        shapeCasts_S1024_S1024x1)
      0x7F800000#32 reduces_S1024x1_S1 (.inl rfl) rfl (ix1 v) = μ := by
    refine eq_of_forall_le_iff fun c => ?_
    refine (le_colmin_iff _ v c).trans ?_
    rw [hμ]
    refine forall_congr' fun k => ?_
    rw [shapeCast_a_a1_apply]
    exact le_rowmin_iff m k c
  rw [e]
  rfl

section Corner

variable (x0 : Vec Ideal S1024x512 .f32) (x1 : Vec Ideal S1024x128 .f32) (S : ℕ → Fin 512 → EReal) (C : ℕ → EReal)
  (hS : ∀ (k : Fin 1024), k.val < 1000 → ∀ d : Fin 512, x0 (ix2 k d) = S k.val d)
  (hC : ∀ (k : Fin 1024), k.val < 1000 → x1 (ix2 k (0 : Fin 128)) = C k.val)
include hS hC

/-- Below row 1000 a centre is the specification's. -/
theorem cen_eq_ctr (p : Fin 1024) (hp : p.val < 1000) (d : Fin 512) : cen x0 x1 (ix2 p d) = ctr S C p.val d := by
  rw [cen_apply, hS p hp d, hC p hp]
  rfl

/-- Below row 1000 a squared norm is the specification's. -/
theorem nrm_eq_sqn (p : Fin 1024) (hp : p.val < 1000) (u : Fin 1) : nrm (cen x0 x1) (ix2 p u) = sqn S C p.val := by
  rw [nrm_apply]
  unfold sqn
  exact Finset.sum_congr rfl fun d _ => by rw [cen_eq_ctr x0 x1 S C hS hC p hp d]

/-- Inside the corner an inner product is the specification's. -/
theorem grm_eq_gram (p q : Fin 1024) (hp : p.val < 1000) (hq : q.val < 1000) :
    grm (cen x0 x1) (ix2 p q) = gram S C p.val q.val := by
  rw [grm_apply]
  unfold gram
  exact Finset.sum_congr rfl fun d _ => by rw [cen_eq_ctr x0 x1 S C hS hC p hp d, cen_eq_ctr x0 x1 S C hS hC q hq d]

/-- Inside the corner a distance is the specification's. -/
theorem dst_eq_dist (p q : Fin 1024) (hp : p.val < 1000) (hq : q.val < 1000) :
    dst (nrm (cen x0 x1)) (grm (cen x0 x1)) (ix2 p q) = dist S C p.val q.val := by
  rw [dst_apply, nrm_eq_sqn x0 x1 S C hS hC p hp, nrm_eq_sqn x0 x1 S C hS hC q hq, grm_eq_gram x0 x1 S C hS hC p q hp hq]
  rfl

/-- Inside the corner a masked distance is the specification's. -/
theorem mskd_eq_msk (p q : Fin 1024) (hp : p.val < 1000) (hq : q.val < 1000) :
    mskd (dst (nrm (cen x0 x1)) (grm (cen x0 x1))) (ix2 p q) = msk S C p.val q.val := by
  rw [mskd_apply, if_pos ⟨hp, hq⟩, dst_eq_dist x0 x1 S C hS hC p q hp hq]
  rfl

omit hS hC in
/-- Outside the corner a masked entry is `+∞`, whatever the padding rows hold. -/
theorem mskd_eq_top (d : FVec Ideal S1024x1024 .f32) (p q : Fin 1024) (h : ¬(p.val < 1000 ∧ q.val < 1000)) :
    mskd d (ix2 p q) = (⊤ : EReal) := by
  rw [mskd_apply, if_neg h, ofBits_inf]

/-- The least masked distance of the specification is the greatest lower bound of all 1024 × 1024 masked entries: the
    entries outside the corner are `+∞`, which bounds nothing. -/
theorem le_dmin_iff (c : EReal) :
    c ≤ dmin S C ↔ ∀ p q : Fin 1024, c ≤ mskd (dst (nrm (cen x0 x1)) (grm (cen x0 x1))) (ix2 p q) := by
  unfold dmin
  rw [Finset.le_inf_iff]
  constructor
  · intro H p q
    by_cases h : p.val < 1000 ∧ q.val < 1000
    · rw [mskd_eq_msk x0 x1 S C hS hC p q h.1 h.2]
      exact H (⟨p.val, h.1⟩, ⟨q.val, h.2⟩) (Finset.mem_univ _)
    · rw [mskd_eq_top _ p q h]
      exact le_top
  · intro H ab _
    have := H ⟨ab.1.val, by have := ab.1.isLt; omega⟩ ⟨ab.2.val, by have := ab.2.isLt; omega⟩
    rwa [mskd_eq_msk x0 x1 S C hS hC _ _ ab.1.isLt ab.2.isLt] at this

end Corner

/-- The value the pairwise kernel stores, from any two blocks whose rows below 1000 are the class sums and (in lane 0)
    the class counts, is the loss of the specification. -/
theorem pay_eq_loss (x0 : Vec Ideal Cert.KernelIdeal.S1024x512 .f32) (x1 : Vec Ideal Cert.KernelIdeal.S1024x128 .f32)
    (S : ℕ → Fin 512 → EReal) (C : ℕ → EReal)
    (hS : ∀ (k : Fin 1024), k.val < 1000 → ∀ d : Fin 512, x0 (ix2 k d) = S k.val d)
    (hC : ∀ (k : Fin 1024), k.val < 1000 → x1 (ix2 k (0 : Fin 128)) = C k.val)
    (y : Cert.KernelIdeal.S1x1.Idx) :
    Cert.KernelIdeal.Gen.k1_pay1 (Cert.KernelIdeal.Gen.k1_pay2 (F := Ideal) x0 x1) (Cert.KernelIdeal.Gen.k1_pay3 (F := Ideal)) y
      = loss S C := by
  rw [pay2_eq]
  show mulf (res (mskd (dst (nrm (cen x0 x1)) (grm (cen x0 x1))))) (broadcast S1x1 (Scalar.ofBits .f32 0x3F800000#32)) y = _
  rw [mulf_apply, broadcast_apply, res_apply _ (dmin S C) (le_dmin_iff x0 x1 S C hS hC) y]
  rfl

end Cert.KernelIdeal.PairValue

end
-- ==== Proof.KernelValue.lean ====
/-
  The kernel's result, read back through its two regions.

  The result buffer ends as the reshape of the 1 × 1 array the second region writes. That region has one grid
  point and every window's block is its whole array, so it writes its body's value of the two arrays it finds;
  and those are what the first region leaves: its two carried blocks after the last of its 64 tiles, written back
  once, whole. The first region finds the features as launched and the class words as one column.
-/
import proofs.«410029_j64123861729955_1_alg».proof.Proof.KernelIdealRun
import proofs.«410029_j64123861729955_1_alg».proof.Proof.Accum
import proofs.«410029_j64123861729955_1_alg».proof.Proof.PairValue
import Idealize.ShloMosaic.Lib.Pipeline.Value
import Idealize.ShloMosaic.Lib.StableHlo.Run
import Idealize.ShloMosaic.Lib.Tactic

noncomputable section

namespace Cert.KernelIdeal.KValue

open Idealize.ShloMosaic Idealize.ShloMosaic.TcCoe Idealize.SL.Sem
open Idealize.ShloMosaic.Pipeline (Dat)
open Cert.KernelIdeal Cert.KernelIdeal.Gen Cert.KernelIdeal.Accum

variable {F : FTy → Type} [FloatOps F]

/-! ## The first region's arrays after its run -/

section Region0

variable (V : (c : Dev nD) → (b : Ref sig .tc) → Buf (Elt F) ((c : Thread nD τ).loc b))

theorem lt63 : 63 < cfg0.N := by rw [show cfg0.N = 64 from N_0]; decide

/-- The last tile: the one point at which the carried blocks are written back. -/
abbrev tLast : Fin cfg0.N := ⟨63, lt63⟩

/-- The carried blocks after the last tile, as contents of the two result arrays. -/
abbrev sumsArr (c : Dev nD) : Buf (Elt F) ((c : Thread nD τ).loc main_v1_0) := sumsAt V c 63 lt63
abbrev countsArr (c : Dev nD) : Buf (Elt F) ((c : Thread nD τ).loc main_v1_1) := countsAt V c 63 lt63

/-- The one write-back of the sums writes the block after the last tile; block (0, 0) of the array is the array. -/
theorem flushed_sums (c : Dev nD) (t : Fin cfg0.N) (hf : (cfg0.win 2).flush t = true) :
    (dat0 V c).flushed 2 t = ((cfg0.win 2).blk t).view.read (Elt F) (sumsArr V c) := by
  have hN : cfg0.N = 64 := N_0
  have h3 : t.val = 63 := by have := (flush0_2 t).mp hf; have := t.isLt; omega
  obtain rfl : t = tLast := Fin.ext h3
  show (cfg0.win 2).cut (grid0.coords tLast) ((dat0 V c).after 2 tLast) = _
  rw [after0_2, outsAt_eq]
  have hz' : (fun a => win0_2.index tLast a * main_v1_0.ty.shape.size a) = fun _ => 0 := funext fun a => by fin_cases a <;> decide +kernel
  exact (Memref.read_access_unit_zero (Elt F) main_v1_0 hz' (fun a => by rw [congrFun hz' a]; simp) (sumsArr V c)).symm

theorem flushed_counts (c : Dev nD) (t : Fin cfg0.N) (hf : (cfg0.win 3).flush t = true) :
    (dat0 V c).flushed 3 t = ((cfg0.win 3).blk t).view.read (Elt F) (countsArr V c) := by
  have hN : cfg0.N = 64 := N_0
  have h3 : t.val = 63 := by have := (flush0_3 t).mp hf; have := t.isLt; omega
  obtain rfl : t = tLast := Fin.ext h3
  show (cfg0.win 3).cut (grid0.coords tLast) ((dat0 V c).after 3 tLast) = _
  rw [after0_3, outsAt_eq]
  have hz' : (fun a => win0_3.index tLast a * main_v1_1.ty.shape.size a) = fun _ => 0 := funext fun a => by fin_cases a <;> decide +kernel
  exact (Memref.read_access_unit_zero (Elt F) main_v1_1 hz' (fun a => by rw [congrFun hz' a]; simp) (countsArr V c)).symm

/-- So the sums array ends at the carried sums after the last tile (that point's block covers it). -/
theorem arr_sums (c : Dev nD) : (dat0 V c).arrAt 2 cfg0.N = sumsArr V c :=
  (dat0 V c).arrAt_eq_of_cover 2 (sumsArr V c) (flushed_sums V c) fun i =>
    ⟨tLast, (flush0_2 tLast).mpr rfl, by
      show i ∈ ((View.whole main_v1_0).slice (win0_2.rect tLast)).set
      rw [View.set_slice_whole, Rect.mem_set_unit]
      intro a
      have h0 : (i 0 : Nat) < 1024 := (i 0).isLt
      have h1 : (i 1 : Nat) < 512 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1024 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 512 from by decide +kernel]; omega⟩

/-- And the counts array at the carried counts. -/
theorem arr_counts (c : Dev nD) : (dat0 V c).arrAt 3 cfg0.N = countsArr V c :=
  (dat0 V c).arrAt_eq_of_cover 3 (countsArr V c) (flushed_counts V c) fun i =>
    ⟨tLast, (flush0_3 tLast).mpr rfl, by
      show i ∈ ((View.whole main_v1_1).slice (win0_3.rect tLast)).set
      rw [View.set_slice_whole, Rect.mem_set_unit]
      intro a
      have h0 : (i 0 : Nat) < 1024 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1024 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 128 from by decide +kernel]; omega⟩

end Region0

/-! ## The second region's array after its run -/

section Region1

variable (V : (c : Dev nD) → (b : Ref sig .tc) → Buf (Elt F) ((c : Thread nD τ).loc b))

/-- Its input blocks are the whole arrays it finds. -/
theorem block_sums (c : Dev nD) (t : Fin cfg1.N) : iblk1 V c 0 t = V c main_v1_0 := by
  obtain rfl := fin_N1 t
  unfold iblk1
  have hz' : (fun a => win1_0.index t1_0 a * main_v1_0.ty.shape.size a) = fun _ => 0 := funext fun a => by fin_cases a <;> decide +kernel
  exact Memref.read_access_unit_zero (Elt F) main_v1_0 hz' (fun a => by rw [congrFun hz' a]; simp) (V c main_v1_0)

theorem block_counts (c : Dev nD) (t : Fin cfg1.N) : iblk1 V c 1 t = V c main_v1_1 := by
  obtain rfl := fin_N1 t
  unfold iblk1
  have hz' : (fun a => win1_1.index t1_0 a * main_v1_1.ty.shape.size a) = fun _ => 0 := funext fun a => by fin_cases a <;> decide +kernel
  exact Memref.read_access_unit_zero (Elt F) main_v1_1 hz' (fun a => by rw [congrFun hz' a]; simp) (V c main_v1_1)

/-- What its body stores, of the two arrays it finds, as contents of its 1 × 1 result array. -/
abbrev lossArr (c : Dev nD) : Buf (Elt F) ((c : Thread nD τ).loc main_v2) := out1_2 (V c main_v1_0) (V c main_v1_1)

theorem flushed_loss (c : Dev nD) (t : Fin cfg1.N) (hf : (cfg1.win 2).flush t = true) :
    (dat1 V c).flushed 2 t = ((cfg1.win 2).blk t).view.read (Elt F) (lossArr V c) := by
  obtain rfl := fin_N1 t
  show (cfg1.win 2).cut (grid1.coords t1_0) ((dat1 V c).after 2 t1_0) = _
  rw [after1_2, block_sums, block_counts]
  have hz' : (fun a => win1_2.index t1_0 a * main_v2.ty.shape.size a) = fun _ => 0 := funext fun a => by fin_cases a <;> decide +kernel
  exact (Memref.read_access_unit_zero (Elt F) main_v2 hz' (fun a => by rw [congrFun hz' a]; simp) (lossArr V c)).symm

/-- So its array ends at that value (its one point's block is the array). -/
theorem arr_loss (c : Dev nD) : (dat1 V c).arrAt 2 cfg1.N = lossArr V c :=
  (dat1 V c).arrAt_eq_of_cover 2 (lossArr V c) (flushed_loss V c) fun i =>
    ⟨t1_0, flush1_2 t1_0, by
      show i ∈ ((View.whole main_v2).slice (win1_2.rect t1_0)).set
      rw [View.set_slice_whole, Rect.mem_set_unit]
      intro a
      have h0 : (i 0 : Nat) < 1 := (i 0).isLt
      have h1 : (i 1 : Nat) < 1 := (i 1).isLt
      match a with
      | ⟨0, _⟩ => show win1_2.index t1_0 0 * win1_2.size 0 ≤ (i 0 : Nat) ∧ (i 0 : Nat) < win1_2.index t1_0 0 * win1_2.size 0 + win1_2.xsize (grid1.coords t1_0) 0
                  rw [show win1_2.index t1_0 0 * win1_2.size 0 = 0 from by decide +kernel, show win1_2.xsize (grid1.coords t1_0) 0 = 1 from by decide +kernel]; omega
      | ⟨1, _⟩ => show win1_2.index t1_0 1 * win1_2.size 1 ≤ (i 1 : Nat) ∧ (i 1 : Nat) < win1_2.index t1_0 1 * win1_2.size 1 + win1_2.xsize (grid1.coords t1_0) 1
                  rw [show win1_2.index t1_0 1 * win1_2.size 1 = 0 from by decide +kernel, show win1_2.xsize (grid1.coords t1_0) 1 = 1 from by decide +kernel]; omega⟩

end Region1

/-! ## The fold through @main: what each region finds, what the result buffer ends at -/

section Fold

variable (m : (ℓ : Loc nD τ sig) → Buf (Elt F) ℓ) (ρ : Dev nD → PrngReg)

/-- The first region finds the features as launched, -/
theorem entry_features (c : Dev nD) : V1 m ρ c main_arg0 = m ((c : Thread nD τ).loc main_arg0) := by
  show StableHlo.after hostOps0 (W0 m ρ c) (Proc.devRef .tc main_arg0) = _
  after_results

/-- and the class words as one column. -/
theorem entry_classes (c : Dev nD) :
    V1 m ρ c main_v0 = shapeCast S131072x1 (m ((c : Thread nD τ).loc main_arg1)) shapeCasts_S131072_S131072x1 := by
  show StableHlo.after hostOps0 (W0 m ρ c) (Proc.devRef .tc main_v0) = _
  after_results
  rfl

/-- The second region finds what the first leaves. -/
theorem exit_sums (c : Dev nD) : V2 m ρ c main_v1_0 = sumsArr (V1 m ρ) c :=
  (W2_arr m ρ c 2).trans (arr_sums (V1 m ρ) c)
theorem exit_counts (c : Dev nD) : V2 m ρ c main_v1_1 = countsArr (V1 m ρ) c :=
  (W2_arr m ρ c 3).trans (arr_counts (V1 m ρ) c)

/-- After the second region its result array holds its body's value of those two. -/
theorem exit_loss (c : Dev nD) : W3 m ρ c (Proc.devRef .tc main_v2) = lossArr (V2 m ρ) c :=
  (W3_arr m ρ c 2).trans (arr_loss (V2 m ρ) c)

/-- The result buffer ends at the reshape of that array. -/
theorem result_fold (c : Dev nD) :
    W4 m ρ c (Proc.devRef .tc main_v3) = shapeCast S_ (lossArr (V2 m ρ) c) shapeCasts_S1x1_S_ := by
  show StableHlo.after hostOps2 (W3 m ρ c) (Proc.devRef .tc main_v3) = _
  after_results
  exact congrArg (fun x => shapeCast S_ x shapeCasts_S1x1_S_) (exit_loss m ρ c)

end Fold

/-! ## The result at the exact values: the loss of the segment sums and counts of the arguments -/

section Exact

open Idealize.ShloMosaic.ValueIdx Cert.RangeLoss

variable (m : (ℓ : Loc nD τ sig) → Buf (Elt Ideal) ℓ) (ρ : Dev nD → PrngReg)

/-- The features and the class words as launched, row by row. -/
abbrev feat (c : Dev nD) : Fin 131072 → Fin 512 → EReal := fun n d => m ((c : Thread nD τ).loc main_arg0) (ix2 n d)
abbrev cls (c : Dev nD) : Fin 131072 → BitVec 32 := fun n => m ((c : Thread nD τ).loc main_arg1) (ix1 n)

/-- Row n of the class column is the n-th class word: the same row-major position. -/
theorem classes_apply (c : Dev nD) (n : Fin 131072) : V1 m ρ c main_v0 (ix2 n (0 : Fin 1)) = cls m c n := by
  rw [entry_classes]
  refine shapeCast_apply _ _ (ix2 n (0 : Fin 1)) (ix1 n) ?_
  rw [Shape.rowMajor_val_one, Shape.rowMajor_val_two]
  show n.val = n.val * 1 + 0
  omega

/-- What the first region leaves, in the arguments' terms. -/
theorem sums_value (c : Dev nD) (k : Fin 1024) (d : Fin 512) :
    V2 m ρ c main_v1_0 (ix2 k d) = segSum (feat m c) (cls m c) k.val d := by
  rw [exit_sums]
  show sumsAt (V1 m ρ) c 63 lt63 (ix2 k d) = _
  rw [sums_final (V1 m ρ) c k d lt63]
  have e1 : (fun (n : Fin 131072) (d : Fin 512) => V1 m ρ c main_arg0 (ix2 n d)) = feat m c := by
    funext n d; rw [entry_features]
  have e2 : (fun (n : Fin 131072) => V1 m ρ c main_v0 (ix2 n (0 : Fin 1))) = cls m c := by
    funext n; exact classes_apply m ρ c n
  rw [e1, e2]

theorem counts_value (c : Dev nD) (k : Fin 1024) (q : Fin 128) :
    V2 m ρ c main_v1_1 (ix2 k q) = segCnt (cls m c) k.val := by
  rw [exit_counts]
  show countsAt (V1 m ρ) c 63 lt63 (ix2 k q) = _
  rw [counts_final (V1 m ρ) c k q lt63]
  have e2 : (fun (n : Fin 131072) => V1 m ρ c main_v0 (ix2 n (0 : Fin 1))) = cls m c := by
    funext n; exact classes_apply m ρ c n
  rw [e2]

/-- THE KERNEL'S RESULT: the result buffer's one element is the loss of the arguments' segment sums and counts. -/
theorem result_value (c : Dev nD) (i : S_.Idx) :
    W4 m ρ c (Proc.devRef .tc main_v3) i = loss (segSum (feat m c) (cls m c)) (segCnt (cls m c)) := by
  rw [result_fold]
  have hpos : (S1x1.rowMajor (ix2 (0 : Fin 1) (0 : Fin 1))).val = (S_.rowMajor i).val := by
    have hl : (S1x1.rowMajor (ix2 (0 : Fin 1) (0 : Fin 1))).val = 0 := by rw [Shape.rowMajor_val_two]; rfl
    have h1 : S_.numel = 1 := by decide
    have hr := (S_.rowMajor i).isLt
    rw [hl]; omega
  rw [shapeCast_apply _ shapeCasts_S1x1_S_ i (ix2 (0 : Fin 1) (0 : Fin 1)) hpos]
  show out1_2 (V2 m ρ c main_v1_0) (V2 m ρ c main_v1_1) (ix2 (0 : Fin 1) (0 : Fin 1)) = _
  unfold out1_2
  rw [View.canon_unit_zero hz]
  simp only [View.ld_unit_zero (S := S1024x512) hz, View.ld_unit_zero (S := S1024x128) hz]
  exact Cert.KernelIdeal.PairValue.pay_eq_loss _ _ _ _
    (fun k _ d => sums_value m ρ c k d) (fun k _ => counts_value m ρ c k 0) _

end Exact

end Cert.KernelIdeal.KValue

end
-- ==== Proof.RefValue.lean ====
/-
  The reference program computes the range loss of the class sums and class counts of its arguments.

  The reference scatters the feature rows, by label, into a `[1000, 512]` array of zeros and a one per row into a
  `[1000]` array of zeros. An update lands on an operand element exactly when, on every operand axis, the start read
  off the labels (signed, not clamped) plus the window coordinate is that element's coordinate; for these two
  scatters that says: row `n` lands on class `k` exactly when the label of `n`, read signed, is `k` (and, for the
  rows, on the same coordinate `d`). So the first scatter is `segSum` and the second `segCnt` (`v2_eq`, `v6_eq`).
  After that every stage is one operation of the specification read at an index: the quotient by the count clamped
  below by one is `ctr`, the row sum of its squares `sqn`, the product with the transpose `gram`, the broadcast
  norms less twice the product `dist`, the select on "greater than zero" `msk`; the minimum over both axes from `+∞`
  is a fold of `min` from `⊤` over every index, which is the infimum over the pairs of classes, `dmin`; and the last
  three scalar operations are `loss`.
-/
import proofs.«410029_j64123861729955_1_alg».proof.Proof.Spec
import proofs.«410029_j64123861729955_1_alg».proof.Proof.Gen.ReferenceIdeal.Read
import Idealize.ShloMosaic.Lib.ValueIdx
import Idealize.ShloMosaic.Lib.ValueIdxRank1
import Idealize.ShloMosaic.Lib.IdealHost
import Idealize.ShloMosaic.PureOps.Ideal.Laws
import Idealize.ShloMosaic.PureOps.Reduce

noncomputable section

namespace Cert.ReferenceIdeal.RefValue

open Idealize.ShloMosaic Idealize.ShloMosaic.ValueIdx Cert.RangeLoss
open Cert.ReferenceIdeal Cert.ReferenceIdeal.Gen Cert.ReferenceIdeal.Read

/-! ## The row scatter: which update lands where -/

set_option maxHeartbeats 50000 in
/-- On the scattered axis the window of update `j` starts at the label of `j`'s row, read signed. -/
theorem start0 (idx : IVec S131072x1 32) (j : S131072x512.Idx) :
    scatter_S1000x512_S131072x1_S131072x512_1_0_0_1.start j idx 0 = (idx (ix2 (j 0) 0)).toInt := by
  unfold ScatterDims.start
  rw [dif_pos (show (0 : Fin S1000x512.rank) ∈ scatter_S1000x512_S131072x1_S131072x512_1_0_0_1.scatterDimsToOperandDims from List.mem_singleton.mpr rfl)]
  refine congrArg (fun t => (idx t).toInt) (funext fun b => Fin.ext ?_)
  match b with
  | ⟨0, _⟩ => rfl
  | ⟨1, _⟩ => rfl

set_option maxHeartbeats 50000 in
/-- On the coordinate axis the window starts at zero. -/
theorem start1 (idx : IVec S131072x1 32) (j : S131072x512.Idx) : scatter_S1000x512_S131072x1_S131072x512_1_0_0_1.start j idx 1 = 0 := by
  unfold ScatterDims.start
  rw [dif_neg (show ¬ (1 : Fin S1000x512.rank) ∈ scatter_S1000x512_S131072x1_S131072x512_1_0_0_1.scatterDimsToOperandDims by decide)]

set_option maxHeartbeats 50000 in
/-- The scattered axis is an inserted one: its window coordinate is zero. -/
theorem window0 (j : S131072x512.Idx) : scatter_S1000x512_S131072x1_S131072x512_1_0_0_1.window j 0 = 0 := by
  unfold ScatterDims.window
  rw [dif_neg (show ¬ (0 : Fin S1000x512.rank) ∈ scatter_S1000x512_S131072x1_S131072x512_1_0_0_1.sKept by decide)]

set_option maxHeartbeats 50000 in
/-- On the coordinate axis the window coordinate is the update's own coordinate. -/
theorem window1 (j : S131072x512.Idx) : scatter_S1000x512_S131072x1_S131072x512_1_0_0_1.window j 1 = (j 1).val := by
  unfold ScatterDims.window
  rw [dif_pos (show (1 : Fin S1000x512.rank) ∈ scatter_S1000x512_S131072x1_S131072x512_1_0_0_1.sKept by decide)]
  rfl

set_option maxHeartbeats 100000 in
/-- An update row `(n, d')` lands on operand element `(k, d)` exactly when row `n`'s label, read signed, is `k`
    and `d' = d`. -/
theorem resultIdx_rows (idx : IVec S131072x1 32) (j : S131072x512.Idx) (k : Fin 1000) (d : Fin 512) :
    scatter_S1000x512_S131072x1_S131072x512_1_0_0_1.resultIdx? j idx = some (ix2 k d) ↔ (idx (ix2 (j 0) 0)).toInt = (k.val : ℤ) ∧ j 1 = d := by
  have hk := k.isLt
  have hj := idx2_lt1 j
  unfold ScatterDims.resultIdx?
  split
  next h =>
    have h0 := h 0
    rw [start0, window0] at h0
    rw [Option.some.injEq]
    constructor
    · intro e
      have e0 := congrArg (fun f => (f 0).val) e
      have e1 := congrArg (fun f => (f 1).val) e
      simp only [start0, start1, window0, window1] at e0 e1
      have e0' : ((idx (ix2 (j 0) 0)).toInt + ((0 : ℕ) : ℤ)).toNat = k.val := e0
      have e1' : ((0 : ℤ) + ((j 1).val : ℤ)).toNat = d.val := e1
      exact ⟨by omega, Fin.ext (by omega)⟩
    · rintro ⟨hk', hd⟩
      funext a; refine Fin.ext ?_
      match a with
      | ⟨0, _⟩ =>
        show (scatter_S1000x512_S131072x1_S131072x512_1_0_0_1.start j idx 0 + (scatter_S1000x512_S131072x1_S131072x512_1_0_0_1.window j 0 : ℕ)).toNat = k.val
        rw [start0, window0]; omega
      | ⟨1, _⟩ =>
        show (scatter_S1000x512_S131072x1_S131072x512_1_0_0_1.start j idx 1 + (scatter_S1000x512_S131072x1_S131072x512_1_0_0_1.window j 1 : ℕ)).toNat = d.val
        rw [start1, window1, ← hd]; omega
  next h =>
    refine ⟨(fun e => by cases e), fun ⟨hk', hd⟩ => absurd ?_ h⟩
    intro a
    match a with
    | ⟨0, _⟩ =>
      show 0 ≤ scatter_S1000x512_S131072x1_S131072x512_1_0_0_1.start j idx 0 + (scatter_S1000x512_S131072x1_S131072x512_1_0_0_1.window j 0 : ℕ) ∧ scatter_S1000x512_S131072x1_S131072x512_1_0_0_1.start j idx 0 + (scatter_S1000x512_S131072x1_S131072x512_1_0_0_1.window j 0 : ℕ) < ((1000 : ℕ) : ℤ)
      rw [start0, window0]; omega
    | ⟨1, _⟩ =>
      show 0 ≤ scatter_S1000x512_S131072x1_S131072x512_1_0_0_1.start j idx 1 + (scatter_S1000x512_S131072x1_S131072x512_1_0_0_1.window j 1 : ℕ) ∧ scatter_S1000x512_S131072x1_S131072x512_1_0_0_1.start j idx 1 + (scatter_S1000x512_S131072x1_S131072x512_1_0_0_1.window j 1 : ℕ) < ((512 : ℕ) : ℤ)
      rw [start1, window1]; omega

/-- The column form of the labels reads the label of its row. -/
theorem v1_apply (x1 : (⟨S131072, .i32⟩ : BufTy).Contents (Elt Ideal)) (n : Fin 131072) :
    val_main_v1 (F := Ideal) x1 (ix2 n 0) = x1 (ix1 n) := by
  rw [val_main_v1_apply]
  exact congrArg x1 (funext fun a => Fin.ext (by match a with | ⟨0, _⟩ => rfl))

set_option maxHeartbeats 200000 in
/-- THE ROW SCATTER IS THE CLASS SUM: element `(k, d)` of the scatter-add of the feature rows into zeros is the sum,
    coordinate `d`, of the rows whose label is `k`. -/
theorem v2_eq (x0 : (⟨S131072x512, .f32⟩ : BufTy).Contents (Elt Ideal))
    (x1 : (⟨S131072, .i32⟩ : BufTy).Contents (Elt Ideal)) (k : Fin 1000) (d : Fin 512) :
    val_main_v2 (F := Ideal) x0 x1 (ix2 k d)
      = segSum (fun n d => x0 (ix2 n d)) (fun n => x1 (ix1 n)) k.val d := by
  unfold val_main_v2 Host.scatterAdd
  rw [Ideal.hostScatterAdd_def]
  unfold Ideal.hostScatterAdd
  rw [val_main_v0_apply, val_main_cst_apply, Ideal.ofBits_def, Ideal.ofBits_zero_f32, zero_add,
    Finset.sum_filter, sum_idx2]
  unfold segSum
  refine Finset.sum_congr rfl fun n _ => ?_
  have key : ∀ b : Fin 512, scatter_S1000x512_S131072x1_S131072x512_1_0_0_1.resultIdx? (ix2 n b) (val_main_v1 (F := Ideal) x1) = some (ix2 k d)
      ↔ (x1 (ix1 n)).toInt = (k.val : ℤ) ∧ b = d := by
    intro b
    have h : scatter_S1000x512_S131072x1_S131072x512_1_0_0_1.resultIdx? (ix2 n b) (val_main_v1 (F := Ideal) x1) = some (ix2 k d)
        ↔ (val_main_v1 (F := Ideal) x1 (ix2 n 0)).toInt = (k.val : ℤ) ∧ b = d :=
      resultIdx_rows (val_main_v1 (F := Ideal) x1) (ix2 n b) k d
    rw [v1_apply] at h
    exact h
  simp only [key]
  by_cases hc : (x1 (ix1 n)).toInt = (k.val : ℤ)
  · simp only [hc, true_and, if_true, Finset.sum_ite_eq', Finset.mem_univ]
  · simp only [hc, false_and, if_false, Finset.sum_const_zero]

/-! ## The count scatter -/

set_option maxHeartbeats 50000 in
/-- On its one axis the window of update `j` of the count scatter starts at the label of row `j`, read signed. -/
theorem cstart0 (idx : IVec S131072x1 32) (j : S131072.Idx) :
    scatter_S1000_S131072x1_S131072_n_0_0_1.start j idx 0 = (idx (ix2 (j 0) 0)).toInt := by
  unfold ScatterDims.start
  rw [dif_pos (show (0 : Fin S1000.rank) ∈ scatter_S1000_S131072x1_S131072_n_0_0_1.scatterDimsToOperandDims from List.mem_singleton.mpr rfl)]
  refine congrArg (fun t => (idx t).toInt) (funext fun b => Fin.ext ?_)
  match b with
  | ⟨0, _⟩ => rfl
  | ⟨1, _⟩ => rfl

set_option maxHeartbeats 50000 in
/-- The count scatter has no window axis: its window coordinate is zero. -/
theorem cwindow0 (j : S131072.Idx) : scatter_S1000_S131072x1_S131072_n_0_0_1.window j 0 = 0 := by
  unfold ScatterDims.window
  rw [dif_neg (show ¬ (0 : Fin S1000.rank) ∈ scatter_S1000_S131072x1_S131072_n_0_0_1.sKept by decide)]

set_option maxHeartbeats 100000 in
/-- Update `n` of the count scatter lands on operand element `k` exactly when row `n`'s label, read signed, is `k`. -/
theorem resultIdx_cnt (idx : IVec S131072x1 32) (j : S131072.Idx) (k : Fin 1000) :
    scatter_S1000_S131072x1_S131072_n_0_0_1.resultIdx? j idx = some (ix1 k) ↔ (idx (ix2 (j 0) 0)).toInt = (k.val : ℤ) := by
  have hk := k.isLt
  unfold ScatterDims.resultIdx?
  split
  next h =>
    have h0 := h 0
    rw [cstart0, cwindow0] at h0
    rw [Option.some.injEq]
    constructor
    · intro e
      have e0 := congrArg (fun f => (f 0).val) e
      simp only [cstart0, cwindow0] at e0
      have e0' : ((idx (ix2 (j 0) 0)).toInt + ((0 : ℕ) : ℤ)).toNat = k.val := e0
      omega
    · intro hk'
      funext a; refine Fin.ext ?_
      match a with
      | ⟨0, _⟩ =>
        show (scatter_S1000_S131072x1_S131072_n_0_0_1.start j idx 0 + (scatter_S1000_S131072x1_S131072_n_0_0_1.window j 0 : ℕ)).toNat = k.val
        rw [cstart0, cwindow0]; omega
  next h =>
    refine ⟨(fun e => by cases e), fun hk' => absurd ?_ h⟩
    intro a
    match a with
    | ⟨0, _⟩ =>
      show 0 ≤ scatter_S1000_S131072x1_S131072_n_0_0_1.start j idx 0 + (scatter_S1000_S131072x1_S131072_n_0_0_1.window j 0 : ℕ) ∧ scatter_S1000_S131072x1_S131072_n_0_0_1.start j idx 0 + (scatter_S1000_S131072x1_S131072_n_0_0_1.window j 0 : ℕ) < ((1000 : ℕ) : ℤ)
      rw [cstart0, cwindow0]; omega

/-- The second column form of the labels reads the label of its row too. -/
theorem v5_apply (x1 : (⟨S131072, .i32⟩ : BufTy).Contents (Elt Ideal)) (n : Fin 131072) :
    val_main_v5 (F := Ideal) x1 (ix2 n 0) = x1 (ix1 n) := by
  rw [val_main_v5_apply]
  exact congrArg x1 (funext fun a => Fin.ext (by match a with | ⟨0, _⟩ => rfl))

set_option maxHeartbeats 200000 in
/-- THE COUNT SCATTER IS THE CLASS COUNT: element `k` of the scatter-add of ones into zeros is the number of rows whose
    label is `k`. -/
theorem v6_eq (x1 : (⟨S131072, .i32⟩ : BufTy).Contents (Elt Ideal)) (k : Fin 1000) :
    val_main_v6 (F := Ideal) x1 (ix1 k) = segCnt (fun n => x1 (ix1 n)) k.val := by
  unfold val_main_v6 Host.scatterAdd
  rw [Ideal.hostScatterAdd_def]
  unfold Ideal.hostScatterAdd
  rw [val_main_v4_apply, val_main_cst_1_apply, Ideal.ofBits_def, Ideal.ofBits_zero_f32, zero_add,
    Finset.sum_filter, ← Equiv.sum_comp (idxEquiv1 (n := 131072)).symm]
  unfold segCnt
  refine Finset.sum_congr rfl fun n _ => ?_
  have key : scatter_S1000_S131072x1_S131072_n_0_0_1.resultIdx? (ix1 n) (val_main_v5 (F := Ideal) x1) = some (ix1 k)
      ↔ (x1 (ix1 n)).toInt = (k.val : ℤ) := by
    have h : scatter_S1000_S131072x1_S131072_n_0_0_1.resultIdx? (ix1 n) (val_main_v5 (F := Ideal) x1) = some (ix1 k)
        ↔ (val_main_v5 (F := Ideal) x1 (ix2 n 0)).toInt = (k.val : ℤ) :=
      resultIdx_cnt (val_main_v5 (F := Ideal) x1) (ix1 n) k
    rw [v5_apply] at h
    exact h
  have hone : val_main_v3 (F := Ideal) (ix1 n) = 1 := by
    rw [val_main_v3_apply, val_main_cst_0_apply, Ideal.ofBits_def, Ideal.ofBits_one_f32]
  show (if scatter_S1000_S131072x1_S131072_n_0_0_1.resultIdx? (ix1 n) (val_main_v5 (F := Ideal) x1) = some (ix1 k) then
      val_main_v3 (F := Ideal) (ix1 n) else 0) = if (x1 (ix1 n)).toInt = (k.val : ℤ) then 1 else 0
  rw [hone]
  simp only [key]

/-! ## The stages between the scatters and the minimum, one operation of the specification each -/

section Stages

/-- The class sums of the reference's two arguments. -/
abbrev clsSum (x0 : (⟨S131072x512, .f32⟩ : BufTy).Contents (Elt Ideal)) (x1 : (⟨S131072, .i32⟩ : BufTy).Contents (Elt Ideal)) :
    ℕ → Fin 512 → EReal := segSum (fun n d => x0 (ix2 n d)) (fun n => x1 (ix1 n))
/-- The class counts of the reference's labels. -/
abbrev clsCnt (x1 : (⟨S131072, .i32⟩ : BufTy).Contents (Elt Ideal)) : ℕ → EReal := segCnt (fun n => x1 (ix1 n))

variable (x0 : (⟨S131072x512, .f32⟩ : BufTy).Contents (Elt Ideal)) (x1 : (⟨S131072, .i32⟩ : BufTy).Contents (Elt Ideal))

set_option maxHeartbeats 100000 in
/-- The quotient stage is the centre: class sum over class count, the count clamped below by one. -/
theorem ctr_eq (k : Fin 1000) (d : Fin 512) :
    val_main_v11 (F := Ideal) x0 x1 (ix2 k d) = ctr (clsSum x0 x1) (clsCnt x1) k.val d := by
  rw [val_main_v11_apply, val_main_v10_apply, val_main_v9_apply, val_main_v8_apply, val_main_v7_apply,
    val_main_cst_2_apply]
  have e : idx_main_v9 (idx_main_v10 (ix2 k d)) = ix1 k :=
    funext fun a => Fin.ext (by match a with | ⟨0, _⟩ => rfl)
  rw [e, v2_eq, v6_eq]
  rfl

set_option maxHeartbeats 100000 in
/-- The row sum of the squared centres is the squared norm. -/
theorem sqn_eq (k : Fin 1000) :
    val_main_v13 (F := Ideal) x0 x1 (ix1 k) = sqn (clsSum x0 x1) (clsCnt x1) k.val := by
  rw [val_main_v13_apply, val_main_cst_3_apply, Ideal.ofBits_def, Ideal.ofBits_zero_f32, zero_add]
  unfold sqn
  refine Finset.sum_congr rfl fun d _ => ?_
  have e : idx_main_v13 (ix1 k) d = ix2 k d :=
    funext fun a => Fin.ext (by match a with | ⟨0, _⟩ => rfl | ⟨1, _⟩ => rfl)
  rw [e, val_main_v12_apply, ctr_eq]
  rfl

set_option maxHeartbeats 100000 in
/-- The product of the centres with their transpose is the table of inner products. -/
theorem gram_eq (k k' : Fin 1000) :
    val_main_v20 (F := Ideal) x0 x1 (ix2 k k') = gram (clsSum x0 x1) (clsCnt x1) k.val k'.val := by
  rw [val_main_v20_apply]
  unfold gram
  refine Finset.sum_congr rfl fun d _ => ?_
  have el : lidx_main_v20 (ix2 k k') d = ix2 k d :=
    funext fun a => Fin.ext (by match a with | ⟨0, _⟩ => rfl | ⟨1, _⟩ => rfl)
  have er : idx_main_v19 (ridx_main_v20 (ix2 k k') d) = ix2 k' d :=
    funext fun a => Fin.ext (by match a with | ⟨0, _⟩ => rfl | ⟨1, _⟩ => rfl)
  rw [val_main_v19_apply, el, er, ctr_eq, ctr_eq]

set_option maxHeartbeats 100000 in
/-- The sum of the two broadcast norms less twice the inner product is the squared distance. -/
theorem dist_eq (k k' : Fin 1000) :
    val_main_v23 (F := Ideal) x0 x1 (ix2 k k') = dist (clsSum x0 x1) (clsCnt x1) k.val k'.val := by
  rw [val_main_v23_apply, val_main_v18_apply, val_main_v16_apply, val_main_v14_apply, val_main_v17_apply,
    val_main_v15_apply, val_main_v22_apply, val_main_v21_apply, val_main_cst_4_apply]
  have e1 : idx_main_v14 (idx_main_v16 (ix2 k k')) = ix1 k :=
    funext fun a => Fin.ext (by match a with | ⟨0, _⟩ => rfl)
  have e2 : idx_main_v15 (idx_main_v17 (ix2 k k')) = ix1 k' :=
    funext fun a => Fin.ext (by match a with | ⟨0, _⟩ => rfl)
  rw [e1, e2, sqn_eq, sqn_eq, gram_eq]
  rfl

set_option maxHeartbeats 100000 in
/-- The select on "distance greater than zero" is the masked distance. -/
theorem msk_eq (k k' : Fin 1000) :
    val_main_v26 (F := Ideal) x0 x1 (ix2 k k') = msk (clsSum x0 x1) (clsCnt x1) k.val k'.val := by
  rw [val_main_v26_apply, val_main_v25_apply, val_main_v24_apply, val_main_cst_5_apply, val_main_call0_v1_apply,
    val_main_call0_v0_apply, val_main_cst_6_apply, dist_eq]
  rfl

/-- A fold of the ideal minimum from the top element is the infimum over the set. -/
theorem fold_min_eq_inf {α : Type} (s : Finset α) (f : α → EReal) :
    s.fold (FloatOps.minimumf (F := Ideal) (φ := .f32)) (⊤ : EReal) f = s.inf f := by
  induction s using Finset.cons_induction with
  | empty => rw [Finset.fold_empty, Finset.inf_empty]
  | cons a s ha ih => rw [Finset.fold_cons, Finset.inf_cons, ih]; rfl

set_option maxHeartbeats 100000 in
/-- The minimum over both axes, from `+∞`, is the least masked distance over the pairs of classes. -/
theorem dmin_eq (i : S_.Idx) :
    val_main_v27 (F := Ideal) x0 x1 i = dmin (clsSum x0 x1) (clsCnt x1) := by
  unfold val_main_v27
  rw [Host.reduce_eq_fold]
  have hf : (Finset.univ.filter fun i' : S1000x1000.Idx => reducesTo_S1000x1000_S_d0_1.drop i' = i) = Finset.univ :=
    Finset.filter_true_of_mem fun i' _ => funext fun b => b.elim0
  rw [hf, val_main_cst_7_apply, Ideal.ofBits_def, ofBits_inf, fold_min_eq_inf, Finset.inf_univ_eq_iInf]
  unfold dmin
  rw [Finset.inf_univ_eq_iInf, ← (idxEquiv2 (n0 := 1000) (n1 := 1000)).symm.iInf_comp]
  exact iInf_congr fun p => msk_eq x0 x1 p.1 p.2

end Stages

/-! ## The result -/

set_option maxHeartbeats 100000 in
/-- THE REFERENCE COMPUTES THE LOSS of the class sums and class counts of its arguments. -/
theorem val_eq_loss (x0 : (⟨Cert.ReferenceIdeal.S131072x512, .f32⟩ : BufTy).Contents (Elt Ideal))
    (x1 : (⟨Cert.ReferenceIdeal.S131072, .i32⟩ : BufTy).Contents (Elt Ideal)) (i : Cert.ReferenceIdeal.S_.Idx) :
    Cert.ReferenceIdeal.Read.val_main_v30 (F := Ideal) x0 x1 i
      = loss (segSum (fun n d => x0 (ix2 n d)) (fun n => x1 (ix1 n))) (segCnt (fun n => x1 (ix1 n))) := by
  rw [val_main_v30_apply, val_main_v29_apply, val_main_v28_apply, val_main_cst_8_apply, val_main_cst_9_apply,
    val_main_cst_10_apply, dmin_eq]
  rfl

end Cert.ReferenceIdeal.RefValue

end
-- ==== Proof.lean ====
/-
  The range loss: a kernel in two regions against its reference, over the extended reals.

  Both programs take 131072 rows of 512 features and a class word per row. The reference sums the rows of each of
  1000 classes by an accumulating scatter, out-of-range words dropped, and counts them the same way; the kernel
  sums them by multiplying, tile of 2048 rows by tile, the transposed indicator matrix "row r has class k",
  k < 1024, with the tile's features, and accumulates the products over its 64 tiles. For every class below 1024 the
  two are one sum over all rows: a row contributes its features where its word is the class and zero elsewhere
  (the extended reals are a commutative monoid with an absorbing zero product, so no finiteness is used). From the
  sums and counts both compute the centres, their pairwise squared distances `|a|² + |b|² - 2 a·b`, the least
  positive one, and `max (1 - least) 0`. The kernel works on 1024 padded classes and masks every entry whose
  row or column is 1000 or more to `+∞` before its two-stage minimum; `+∞` is the identity of the minimum, so the
  1000 × 1000 corner decides, and that corner is the reference's array entry for entry.

  The modules: Spec (the mathematics, free of both programs), Accum (the first region's carried blocks after
  each tile, and after the last tile as segment sums and counts), PairValue (the second region's stored value is the
  loss of whatever sums and counts it is given), KernelValue (the result buffer read back through both regions),
  RefValue (the reference's stages read down to the same loss), KernelIdealRun (the kernel's run with its result
  buffer named). The frames of the two kernel programs are the generated ones; the reference's frame is its
  generated run with the result dropped; the idealization rewrote nothing.
-/
import proofs.«410029_j64123861729955_1_alg».proof.Defs
import proofs.«410029_j64123861729955_1_alg».proof.Proof.Gen.Kernel
import proofs.«410029_j64123861729955_1_alg».proof.Proof.Gen.Kernel.Skeleton
import proofs.«410029_j64123861729955_1_alg».proof.Proof.Gen.Kernel.Launch
import proofs.«410029_j64123861729955_1_alg».proof.Proof.Gen.Kernel.Points
import proofs.«410029_j64123861729955_1_alg».proof.Proof.Gen.Kernel.Frame
import proofs.«410029_j64123861729955_1_alg».proof.Proof.Gen.KernelIdeal
import proofs.«410029_j64123861729955_1_alg».proof.Proof.Gen.KernelIdeal.Skeleton
import proofs.«410029_j64123861729955_1_alg».proof.Proof.Gen.KernelIdeal.Launch
import proofs.«410029_j64123861729955_1_alg».proof.Proof.Gen.KernelIdeal.Points
import proofs.«410029_j64123861729955_1_alg».proof.Proof.Gen.KernelIdeal.Frame
import proofs.«410029_j64123861729955_1_alg».proof.Proof.Gen.ReferenceIdeal
import proofs.«410029_j64123861729955_1_alg».proof.Proof.Gen.Pre_finite_inputs
import proofs.«410029_j64123861729955_1_alg».proof.Proof.Gen.ReferenceIdeal.Run
import proofs.«410029_j64123861729955_1_alg».proof.Proof.Gen.ReferenceIdeal.Read
import proofs.«410029_j64123861729955_1_alg».proof.Proof.KernelValue
import proofs.«410029_j64123861729955_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and keeps its arguments: its generated run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- At the exact values both programs end with the loss of the arguments' segment sums and counts: the kernel's result
    buffer through its two regions, the reference's through its stages; the arguments agree, so the two are one number. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W4 m ρ c (Proc.devRef .tc Cert.KernelIdeal.main_v3),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  rw [Cert.ReferenceIdeal.Read.val_main_v30_eq, Cert.ReferenceIdeal.RefValue.val_eq_loss, (hagree c).1, (hagree c).2]
  exact (Cert.KernelIdeal.KValue.result_value m ρ c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
